-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S10000x128 : Shape := ⟨2, ![10000, 128]⟩
abbrev S700000x128 : Shape := ⟨2, ![700000, 128]⟩
abbrev S1x128 : Shape := ⟨2, ![1, 128]⟩

abbrev nBuf : Space → Nat
  | .hbm => 82
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S1x128, .f32⟩
  | .hbm, ⟨66, _⟩ => ⟨S1x128, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev main_v45_2 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S10000x128_S10000x128 : S10000x128.ShapeCasts S10000x128
  shapeCasts_S1x128_S1x128 : S1x128.ShapeCasts S1x128
  broadcasts_S1x128_S10000x128 : S1x128.Broadcasts S10000x128
  reduces_S10000x128_S128 : S10000x128.Reduces [0] S128
  shapeCasts_S1x128_S128 : S1x128.ShapeCasts S128
  bcast_S_S128 : S_.BroadcastsInDim S128 (![] : Fin 0 → Fin S128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S10000x128_S128x128_S10000x128_1_0_0_1_n_n_wf : DotDims.WF S10000x128 S128x128 S10000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S10000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v56) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x128, .f32⟩
  | .hbm, ⟨56, _⟩ => ⟨S700000x1, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S1x128, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S100000x128, .f32⟩
  | .hbm, ⟨98, _⟩ => ⟨S100000x128, .f32⟩
  | .hbm, ⟨99, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_v73 : Ref sig .tc := ⟨.hbm, 99, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.Spec.lean ====
/-
  The mathematics shared by both programs, on extended reals and literal index sets: a [100000, 128] array of
  node features is normalised column by column with the batch statistics of its 100000 rows (mean and biased
  variance), scaled, shifted, clamped below at zero and added to a residual. The variance is written in the two
  ways the programs spell it (mean of squared deviations; mean of squares minus squared mean).
-/
import Idealize.ShloMosaic.PureOps.Ideal
import Idealize.ShloMosaic.PureOps.Ideal.Laws
import Idealize.ShloMosaic.Lib.ValueIdx

noncomputable section

open scoped BigOperators

namespace GcnBn

open Idealize.ShloMosaic Idealize.ShloMosaic.ValueIdx

/-- Node features: 100000 rows (nodes) of 128 columns (features). -/
abbrev SN : Shape := ⟨2, ![100000, 128]⟩
/-- The weight matrix. -/
abbrev SW : Shape := ⟨2, ![128, 128]⟩
/-- One row of 128 features, kept as a rank-2 array. -/
abbrev SR : Shape := ⟨2, ![1, 128]⟩

/-- The row (node) of a feature index, as a plain `Fin`. -/
abbrev rowOf (i : SN.Idx) : Fin 100000 := ⟨(i 0).val, idx2_lt0 i⟩
/-- The column (feature) of a feature index, as a plain `Fin`. -/
abbrev colOf (i : SN.Idx) : Fin 128 := ⟨(i 1).val, idx2_lt1 i⟩
/-- The column of a one-row index. -/
abbrev colOfRow (i : SR.Idx) : Fin 128 := ⟨(i 1).val, idx2_lt1 i⟩

/-- The divisor both programs spell: the float `100000.0`. -/
def nNodes : EReal := Ideal.ofBits .f32 0x47C35000#32
/-- The stabiliser under the square root: the float nearest `1e-5`. -/
def eps : EReal := Ideal.ofBits .f32 0x3727C5AC#32

/-- Column `j`'s sum over the 100000 rows. -/
def colSum (Y : SN.Idx → EReal) (j : Fin 128) : EReal := ∑ r : Fin 100000, Y (ix2 r j)
/-- Column `j`'s sum of squares over the rows. -/
def colSumSq (Y : SN.Idx → EReal) (j : Fin 128) : EReal := ∑ r : Fin 100000, Y (ix2 r j) * Y (ix2 r j)
/-- Column `j`'s mean. -/
def mean (Y : SN.Idx → EReal) (j : Fin 128) : EReal := Ideal.div (colSum Y j) nNodes
/-- The biased variance as mean of squares minus squared mean. -/
def varOfSquares (Y : SN.Idx → EReal) (j : Fin 128) : EReal := Ideal.div (colSumSq Y j) nNodes - mean Y j * mean Y j
/-- The biased variance as mean of squared deviations from the mean. -/
def varCentred (Y : SN.Idx → EReal) (j : Fin 128) : EReal :=
  Ideal.div (∑ r : Fin 100000, (Y (ix2 r j) - mean Y j) * (Y (ix2 r j) - mean Y j)) nNodes

/-- Normalise `Y` by its column means and a column variance `var`, scale by `g`, shift by `β`, clamp at zero, add `x`. -/
def bnRelu (var : Fin 128 → EReal) (Y x : SN.Idx → EReal) (g β : Fin 128 → EReal) : SN.Idx → EReal := fun i =>
  max ((Y i - mean Y (colOf i)) * Ideal.rsqrt (var (colOf i) + eps) * g (colOf i) + β (colOf i)) 0 + x i

/-- The matrix product of the features with the weights, entry by entry. -/
def matmulOf (x : SN.Idx → EReal) (w : SW.Idx → EReal) : SN.Idx → EReal := fun i =>
  ∑ k : Fin 128, x (ix2 (rowOf i) k) * w (ix2 k (colOf i))

/-- A one-row bias added to every row. -/
def addBias (A : SN.Idx → EReal) (b1 : SR.Idx → EReal) : SN.Idx → EReal := fun i => A i + b1 (ix2 0 (colOf i))
/-- The column sums, as one row. -/
def sumRow (Y : SN.Idx → EReal) : SR.Idx → EReal := fun i => colSum Y (colOfRow i)
/-- The column sums of squares, as one row. -/
def sumSqRow (Y : SN.Idx → EReal) : SR.Idx → EReal := fun i => colSumSq Y (colOfRow i)
/-- The normalisation with every per-column quantity given as one row. -/
def bnReluRows (Y x : SN.Idx → EReal) (m1 v1 g1 β1 : SR.Idx → EReal) : SN.Idx → EReal := fun i =>
  max ((Y i - m1 (ix2 0 (colOf i))) * Ideal.rsqrt (v1 (ix2 0 (colOf i)) + eps) * g1 (ix2 0 (colOf i)) + β1 (ix2 0 (colOf i))) 0 + x i

theorem matmulOf_apply (x : SN.Idx → EReal) (w : SW.Idx → EReal) (r : Fin 100000) (j : Fin 128) :
    matmulOf x w (ix2 r j) = ∑ k : Fin 128, x (ix2 r k) * w (ix2 k j) := rfl
theorem addBias_apply (A : SN.Idx → EReal) (b1 : SR.Idx → EReal) (r : Fin 100000) (j : Fin 128) :
    addBias A b1 (ix2 r j) = A (ix2 r j) + b1 (ix2 0 j) := rfl
theorem sumRow_apply (Y : SN.Idx → EReal) (j : Fin 128) : sumRow Y (ix2 0 j) = colSum Y j := rfl
theorem sumSqRow_apply (Y : SN.Idx → EReal) (j : Fin 128) : sumSqRow Y (ix2 0 j) = colSumSq Y j := rfl
theorem bnReluRows_apply (Y x : SN.Idx → EReal) (m1 v1 g1 β1 : SR.Idx → EReal) (r : Fin 100000) (j : Fin 128) :
    bnReluRows Y x m1 v1 g1 β1 (ix2 r j)
      = max ((Y (ix2 r j) - m1 (ix2 0 j)) * Ideal.rsqrt (v1 (ix2 0 j) + eps) * g1 (ix2 0 j) + β1 (ix2 0 j)) 0 + x (ix2 r j) := rfl
theorem bnRelu_apply (var : Fin 128 → EReal) (Y x : SN.Idx → EReal) (g β : Fin 128 → EReal) (r : Fin 100000) (j : Fin 128) :
    bnRelu var Y x g β (ix2 r j)
      = max ((Y (ix2 r j) - mean Y j) * Ideal.rsqrt (var j + eps) * g j + β j) 0 + x (ix2 r j) := rfl

end GcnBn

end
-- ==== Proof.Tail.lean ====
/-
  The last stretch of the kernel program, read backwards from its result: the third pallas_call normalises the biased
  aggregate with per-column rows that the host computes from the second call's two accumulators — the mean is the column
  sum over 100000, the variance the column sum of squares over 100000 minus the squared mean — and with the scale and
  shift rows, which are the arguments reshaped. Each of those rows is read at a column, over whatever the second call
  left in its three output arrays; with the second call's arrays at the biased aggregate `Y`, its column sums and its
  column sums of squares, the result is the batch normalisation of `Y` with the variance spelt as mean of squares minus
  squared mean.
-/
import proofs.«125161_j88390426952001_1_alg».proof.Proof.Gen.KernelIdeal.Frame
import proofs.«125161_j88390426952001_1_alg».proof.Proof.Spec
import Idealize.ShloMosaic.Lib.StableHlo.Run
import Idealize.ShloMosaic.Lib.ValueLayout
import Idealize.ShloMosaic.Lib.ValueIdx
import Idealize.ShloMosaic.Lib.Pipeline.Value

set_option maxRecDepth 16384

noncomputable section

namespace Cert.KernelIdeal.Tail

open Cert.KernelIdeal Cert.KernelIdeal.Gen Idealize.ShloMosaic Idealize.ShloMosaic.TcCoe Idealize.ShloMosaic.ValueIdx
open Idealize.SL.Sem Idealize.ShloMosaic.StableHlo GcnBn
open Idealize.ShloMosaic.Pipeline (Dat)

section AnyF
variable {F : FTy → Type} [FloatOps F]
variable (m : (ℓ : Loc nD τ sig) → Buf (Elt F) ℓ) (ρ : Dev nD → PrngReg)

/-- The host stretch between the second and the third call writes none of the buffers it does not name: such a buffer
    holds after it what it held before. -/
theorem keep2 (c : Dev nD) (b : Ref sig .tc)
    (hb : b ≠ main_v46 ∧ b ≠ main_cst_9 ∧ b ≠ main_v47 ∧ b ≠ main_v48 ∧ b ≠ main_v49 ∧ b ≠ main_cst_10 ∧ b ≠ main_v50
      ∧ b ≠ main_v51 ∧ b ≠ main_v52 ∧ b ≠ main_v53 ∧ b ≠ main_v54 ∧ b ≠ main_v55 ∧ b ≠ main_v56 ∧ b ≠ main_v57) :
    W7 m ρ c (Proc.devRef .tc b) = W6 m ρ c (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    obtain ⟨h1, h2, h3, h4, h5, h6, h7, h8, h9, h10, h11, h12, h13, h14⟩ := hb
    repeat' apply And.intro
    all_goals exact StableHlo.devRef_ne_of_ne (by assumption)))

/-- The mean row the third call reads: the second call's column sums, over 100000, as one row. -/
theorem V7_mean (c : Dev nD) : V7 m ρ c main_v54
    = shapeCast S1x128 (Host.divf (shapeCast S128 (W6 m ρ c (Proc.devRef .tc main_v45_1)) shapeCasts_S1x128_S128)
        (broadcastInDim S128 ![] bcast_S_S128 (constant (F := F) S_ .f32 0x47C35000#32))) shapeCasts_S128_S1x128 := by
  show StableHlo.after hostOps2 (W6 m ρ c) (Proc.devRef .tc main_v54) = _
  after_results
  rfl

/-- The variance row: the column sums of squares over 100000, minus the squared mean. -/
theorem V7_var (c : Dev nD) : V7 m ρ c main_v55
    = shapeCast S1x128 (subf
        (Host.divf (shapeCast S128 (W6 m ρ c (Proc.devRef .tc main_v45_2)) shapeCasts_S1x128_S128)
          (broadcastInDim S128 ![] bcast_S_S128 (constant (F := F) S_ .f32 0x47C35000#32)))
        (mulf
          (Host.divf (shapeCast S128 (W6 m ρ c (Proc.devRef .tc main_v45_1)) shapeCasts_S1x128_S128)
            (broadcastInDim S128 ![] bcast_S_S128 (constant (F := F) S_ .f32 0x47C35000#32)))
          (Host.divf (shapeCast S128 (W6 m ρ c (Proc.devRef .tc main_v45_1)) shapeCasts_S1x128_S128)
            (broadcastInDim S128 ![] bcast_S_S128 (constant (F := F) S_ .f32 0x47C35000#32))))) shapeCasts_S128_S1x128 := by
  show StableHlo.after hostOps2 (W6 m ρ c) (Proc.devRef .tc main_v55) = _
  after_results
  rfl

/-- The scale row is the scale argument as one row. -/
theorem V7_scale (c : Dev nD) : V7 m ρ c main_v56
    = shapeCast S1x128 (W6 m ρ c (Proc.devRef .tc main_arg4)) shapeCasts_S128_S1x128 := by
  show StableHlo.after hostOps2 (W6 m ρ c) (Proc.devRef .tc main_v56) = _
  after_results
  rfl

/-- The shift row is the shift argument as one row. -/
theorem V7_shift (c : Dev nD) : V7 m ρ c main_v57
    = shapeCast S1x128 (W6 m ρ c (Proc.devRef .tc main_arg5)) shapeCasts_S128_S1x128 := by
  show StableHlo.after hostOps2 (W6 m ρ c) (Proc.devRef .tc main_v57) = _
  after_results
  rfl

/-- The biased aggregate the third call reads is what the second call left. -/
theorem V7_biased (c : Dev nD) : V7 m ρ c main_v45_0 = W6 m ρ c (Proc.devRef .tc main_v45_0) :=
  keep2 m ρ c main_v45_0 (by decide)

/-- The residual the third call reads is the feature argument as launched. -/
theorem V7_features (c : Dev nD) : V7 m ρ c main_arg0 = m ((c : Thread nD τ).loc main_arg0) :=
  ((W8_arr m ρ c 1).trans (((dat2 (V7 m ρ) c).arrAt_in 1 rfl _).trans (A_eq2 (V7 m ρ) c 1))).symm.trans (W8_main_arg0 m ρ c)

/-- The scale argument is untouched up to the third call. -/
theorem W6_scale (c : Dev nD) : W6 m ρ c (Proc.devRef .tc main_arg4) = m ((c : Thread nD τ).loc main_arg4) :=
  ((W8_of_ne m ρ c main_arg4 (by decide)).trans (keep2 m ρ c main_arg4 (by decide))).symm.trans (W8_main_arg4 m ρ c)

/-- The shift argument is untouched up to the third call. -/
theorem W6_shift (c : Dev nD) : W6 m ρ c (Proc.devRef .tc main_arg5) = m ((c : Thread nD τ).loc main_arg5) :=
  ((W8_of_ne m ρ c main_arg5 (by decide)).trans (keep2 m ρ c main_arg5 (by decide))).symm.trans (W8_main_arg5 m ρ c)

end AnyF

section AtIdeal
variable (m : (ℓ : Loc nD τ sig) → Buf (Elt Ideal) ℓ) (ρ : Dev nD → PrngReg)

/-- The mean row at column `j`, over the column sums `S` the second call left. -/
theorem mean_at (c : Dev nD) (j : Fin 128) (S : SR.Idx → EReal)
    (hS : (W6 m ρ c (Proc.devRef .tc main_v45_1) : SR.Idx → EReal) = S) :
    (V7 m ρ c main_v54 : SR.Idx → EReal) (ix2 0 j) = Ideal.div (S (ix2 0 j)) nNodes := by
  rw [V7_mean, hS, shapeCast_a_1a_apply]
  show Ideal.div (shapeCast S128 S shapeCasts_S1x128_S128 (ix1 j)) _ = _
  rw [shapeCast_1a_a_apply]
  rfl

/-- The variance row at column `j`, over the column sums `S` and the column sums of squares `Q`. -/
theorem var_at (c : Dev nD) (j : Fin 128) (S Q : SR.Idx → EReal)
    (hS : (W6 m ρ c (Proc.devRef .tc main_v45_1) : SR.Idx → EReal) = S)
    (hQ : (W6 m ρ c (Proc.devRef .tc main_v45_2) : SR.Idx → EReal) = Q) :
    (V7 m ρ c main_v55 : SR.Idx → EReal) (ix2 0 j)
      = Ideal.div (Q (ix2 0 j)) nNodes - Ideal.div (S (ix2 0 j)) nNodes * Ideal.div (S (ix2 0 j)) nNodes := by
  rw [V7_var, hS, hQ, shapeCast_a_1a_apply]
  show Ideal.div (shapeCast S128 Q shapeCasts_S1x128_S128 (ix1 j)) _
    - Ideal.div (shapeCast S128 S shapeCasts_S1x128_S128 (ix1 j)) _ * Ideal.div (shapeCast S128 S shapeCasts_S1x128_S128 (ix1 j)) _ = _
  rw [shapeCast_1a_a_apply, shapeCast_1a_a_apply]
  rfl

/-- The scale row at column `j` is the scale argument's entry `j`. -/
theorem scale_at (c : Dev nD) (j : Fin 128) :
    (V7 m ρ c main_v56 : SR.Idx → EReal) (ix2 0 j) = (m ((c : Thread nD τ).loc main_arg4) : S128.Idx → EReal) (ix1 j) := by
  rw [V7_scale, W6_scale, shapeCast_a_1a_apply]

/-- The shift row at column `j` is the shift argument's entry `j`. -/
theorem shift_at (c : Dev nD) (j : Fin 128) :
    (V7 m ρ c main_v57 : SR.Idx → EReal) (ix2 0 j) = (m ((c : Thread nD τ).loc main_arg5) : S128.Idx → EReal) (ix1 j) := by
  rw [V7_shift, W6_shift, shapeCast_a_1a_apply]

/-- With the third call's output array at the row-wise normalisation of what it reads, and the second call's three
    arrays at `Y`, its column sums and its column sums of squares, the program's result is the batch normalisation of
    `Y` — the variance as mean of squares minus squared mean — scaled, shifted, clamped at zero, plus the features. -/
theorem result_eq (c : Dev nD) (Y : SN.Idx → EReal)
    (h6 : (W8 m ρ c (Proc.devRef .tc main_v58) : SN.Idx → EReal)
      = bnReluRows (V7 m ρ c main_v45_0) (V7 m ρ c main_arg0) (V7 m ρ c main_v54) (V7 m ρ c main_v55) (V7 m ρ c main_v56) (V7 m ρ c main_v57))
    (h2 : (W6 m ρ c (Proc.devRef .tc main_v45_0) : SN.Idx → EReal) = Y)
    (h3 : (W6 m ρ c (Proc.devRef .tc main_v45_1) : SR.Idx → EReal) = sumRow Y)
    (h4 : (W6 m ρ c (Proc.devRef .tc main_v45_2) : SR.Idx → EReal) = sumSqRow Y) :
    (W8 m ρ c (Proc.devRef .tc main_v58) : SN.Idx → EReal)
      = bnRelu (varOfSquares Y) Y (m ((c : Thread nD τ).loc main_arg0))
          (fun j => (m ((c : Thread nD τ).loc main_arg4) : S128.Idx → EReal) (ix1 j))
          (fun j => (m ((c : Thread nD τ).loc main_arg5) : S128.Idx → EReal) (ix1 j)) := by
  rw [h6]
  funext i
  obtain ⟨r, j, rfl⟩ : ∃ (r : Fin 100000) (j : Fin 128), i = ix2 r j :=
    ⟨rowOf i, colOf i, by funext a; match a with | ⟨0, _⟩ => rfl | ⟨1, _⟩ => rfl⟩
  rw [bnReluRows_apply, bnRelu_apply, mean_at m ρ c j _ h3, var_at m ρ c j _ _ h3 h4, scale_at, shift_at, V7_biased, h2,
    V7_features, sumRow_apply, sumSqRow_apply]
  rfl

end AtIdeal

end Cert.KernelIdeal.Tail

end
-- ==== Proof.Region0.lean ====
/-
  Region 0 of the kernel program: every grid point multiplies its block of 10000 feature rows by the whole
  weight matrix and stores the product block whole. After the ten points the output array holds the matrix
  product of the features with the weights, entry by entry.
-/
import proofs.«125161_j88390426952001_1_alg».proof.Proof.Gen.KernelIdeal.Frame
import proofs.«125161_j88390426952001_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Cert.KernelIdeal Cert.KernelIdeal.Gen Idealize.ShloMosaic Idealize.ShloMosaic.TcCoe Idealize.ShloMosaic.ValueIdx Idealize.SL.Sem GcnBn
open Idealize.ShloMosaic.Pipeline (Dat)

variable (V : (c : Dev nD) → (b : Ref sig .tc) → Buf (Elt Ideal) ((c : Thread nD τ).loc b))

/-! ## The block product at an index -/

/-- The left operand's row is the output's row. -/
theorem lhs_blk_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the contraction index. -/
theorem lhs_blk_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contraction index. -/
theorem rhs_blk_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the output's column. -/
theorem rhs_blk_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The payload at row `q`, column `j` of the block: the sum over `k` of the feature block at `(q, k)` times the
    weights at `(k, j)`; the zero accumulator adds nothing. -/
theorem pay_apply (x0 : Vec Ideal S10000x128 .f32) (x1 : Vec Ideal S128x128 .f32) (q : Fin 10000) (j : Fin 128) :
    k0_pay1 x0 x1 (ix2 q j) = ∑ k : Fin 128, x0 (ix2 q k) * x1 (ix2 k j) := by
  unfold k0_pay1
  show FloatOps.matmul (F := Ideal) dot_S10000x128_S128x128_S10000x128_1_0_0_1_n_n none (x0 : FVec Ideal S10000x128 .f32) (x1 : FVec Ideal S128x128 .f32) (constant S10000x128 .f32 0x00000000#32) (ix2 q j) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 q j) ((ValueIdx.contrEquiv1 dot_S10000x128_S128x128_S10000x128_1_0_0_1_n_n 128 rfl rfl).symm k) = ix2 q k := funext fun a => Fin.ext (by
    match a with
    | ⟨0, _⟩ => exact lhs_blk_0 _ _
    | ⟨1, _⟩ => exact (lhs_blk_1 _ _).trans hk)
  have er : dot_S10000x128_S128x128_S10000x128_1_0_0_1_n_n.rhsIdx (ix2 q j) ((ValueIdx.contrEquiv1 dot_S10000x128_S128x128_S10000x128_1_0_0_1_n_n 128 rfl rfl).symm k) = ix2 k j := funext fun a => Fin.ext (by
    match a with
    | ⟨0, _⟩ => exact (rhs_blk_0 _ _).trans hk
    | ⟨1, _⟩ => exact rhs_blk_1 _ _)
  rw [el, er]

/-- The payload at any index of the block. -/
theorem pay_apply_idx (x0 : Vec Ideal S10000x128 .f32) (x1 : Vec Ideal S128x128 .f32) (y : S10000x128.Idx) :
    k0_pay1 x0 x1 y = ∑ k : Fin 128, x0 (ix2 (⟨(y 0).val, idx2_lt0 y⟩ : Fin 10000) k) * x1 (ix2 k (⟨(y 1).val, idx2_lt1 y⟩ : Fin 128)) := by
  obtain ⟨q, j, rfl⟩ : ∃ (q : Fin 10000) (j : Fin 128), y = ix2 q j := ⟨y 0, y 1, eq_ix2 y⟩
  exact pay_apply x0 x1 q j

/-! ## The blocks of the three windows -/

theorem hz : (![0, 0] : Fin 2 → Nat) = fun _ => 0 := funext fun a => by fin_cases a <;> rfl

/-- The printed index maps, decided once over the grid: the feature and product blocks of point `t` are row block
    `t`, the weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block of point `t` holds rows `10000 t … 10000 t + 9999` of the features. -/
theorem iblk_x_apply (c : Dev nD) (t : Fin cfg0.N) (y : S10000x128.Idx) (i : SN.Idx)
    (h0 : (i 0).val = t.val * 10000 + (y 0).val) (h1 : (i 1).val = (y 1).val) :
    (iblk0 V c 0 t : Vec Ideal S10000x128 .f32) y = (V c main_arg0 : SN.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The weights' block of every point is the whole weight matrix. -/
theorem iblk_w_apply (c : Dev nD) (t : Fin cfg0.N) (y : S128x128.Idx) (i : SW.Idx)
    (h0 : (i 0).val = (y 0).val) (h1 : (i 1).val = (y 1).val) :
    (iblk0 V c 1 t : Vec Ideal S128x128 .f32) y = (V c main_arg2 : SW.Idx → EReal) i := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * (y 0).val = (i 0).val; rw [e2, h0]; omega
  | ⟨1, _⟩ => show win0_1.index t (1 : Fin 2) * 128 + 1 * (y 1).val = (i 1).val; rw [e3, h1]; omega

/-- The payload on the blocks of point `t`, at row `y 0` of the block, is the matrix product at row
    `10000 t + y 0` of the array. -/
theorem out_apply (c : Dev nD) (t : Fin cfg0.N) (y : S10000x128.Idx) (i : SN.Idx)
    (h0 : (i 0).val = t.val * 10000 + (y 0).val) (h1 : (i 1).val = (y 1).val) :
    k0_pay1 (iblk0 V c 0 t) (iblk0 V c 1 t) y = matmulOf (V c main_arg0) (V c main_arg2) i := by
  obtain ⟨r, j, rfl⟩ : ∃ (r : Fin 100000) (j : Fin 128), i = ix2 r j := ⟨i 0, i 1, eq_ix2 i⟩
  rw [pay_apply_idx, matmulOf_apply]
  refine Finset.sum_congr rfl fun k _ => ?_
  rw [iblk_x_apply V c t (ix2 (⟨(y 0).val, idx2_lt0 y⟩ : Fin 10000) k) (ix2 r k) h0 rfl,
    iblk_w_apply V c t (ix2 k (⟨(y 1).val, idx2_lt1 y⟩ : Fin 128)) (ix2 k j) rfl h1]

/-! ## From the blocks to the array -/

/-- What point `t` writes back is block `t` of the matrix product of the arrays the region finds. -/
theorem flushed_eq (c : Dev nD) (t : Fin cfg0.N) :
    (dat0 (F := Ideal) V c).flushed 2 t
      = ((cfg0.win 2).blk t).view.read (Elt Ideal) (matmulOf (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e4, e5⟩ := idx_facts t
  funext y
  exact out_apply V c t y (((cfg0.win 2).blk t).view.emb y)
    (by show win0_2.index t (0 : Fin 2) * 10000 + 1 * (y 0).val = t.val * 10000 + (y 0).val; rw [e4]; omega)
    (by show win0_2.index t (1 : Fin 2) * 128 + 1 * (y 1).val = (y 1).val; rw [e5]; omega)

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Row `r` of the array is in the block of point `r / 10000`: the ten row blocks cover the array. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 128 ≤ (i 1).val ∧ (i 1).val < win0_2.index t (1 : Fin 2) * 128 + 128; rw [e5]; omega

/-- THE ARRAY after the region: the matrix product of the features with the weights. -/
theorem arr2 (c : Dev nD) :
    ((dat0 (F := Ideal) V c).arrAt 2 cfg0.N : GcnBn.SN.Idx → EReal) = GcnBn.matmulOf (V c main_arg0) (V c main_arg2) :=
  (dat0 V c).arrAt_eq_of_cover 2 (matmulOf (V c main_arg0) (V c main_arg2)) (fun t _ => flushed_eq V c t) cover

end Cert.KernelIdeal.Reg0

end
-- ==== Proof.Region1.lean ====
/-
  Region 1 on extended reals: the bias row is added to every row of the [100000, 128] feature array, block of
  10000 rows by block, and the column sums and column sums of squares of the shifted rows are accumulated over the
  ten blocks. After the region the first output array holds the shifted features, the second their column sums and
  the third their column sums of squares, each as one function of the arrays the region finds.
-/
import proofs.«125161_j88390426952001_1_alg».proof.Proof.Gen.KernelIdeal.Frame
import proofs.«125161_j88390426952001_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Cert.KernelIdeal Cert.KernelIdeal.Gen Idealize.ShloMosaic Idealize.ShloMosaic.TcCoe Idealize.ShloMosaic.ValueIdx Idealize.SL.Sem GcnBn
open Idealize.ShloMosaic.Pipeline (Dat)
open scoped BigOperators

namespace Cert.KernelIdeal.Reg1

/-! ## What each case of the body leaves in the three outputs, as values of the blocks it reads -/

section Pieces

variable {F : FTy → Type} [FloatOps F]

theorem hz : (![0, 0] : Fin 2 → Nat) = fun _ => 0 := funext fun a => by fin_cases a <;> rfl

/-- First point, the shifted block: the rows plus the bias row. -/
theorem out_A_2 (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S10000x128 .f32) (x1 : Vec F S1x128 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero (S := S10000x128) hz]
  simp only [View.readAt_eq_ld, h1.read_unread, h2.read_unread, View.ld_unit_zero (S := S10000x128) hz, View.ld_unit_zero (S := S1x128) hz]

/-- First point, the column sums: the zero row is stored, read back, and the block's column sums added. -/
theorem out_A_3 (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S10000x128 .f32) (x1 : Vec F S1x128 .f32) :
    out1_A_3 c i a1 h1 a2 h2 a3 h3 a4 h4 a5 h5 hc x0 x1 = k1_pay4 x0 x1 k1_pay1 := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz, View.ld_unit_zero (S := S1x128) hz]

/-- First point, the column sums of squares. -/
theorem out_A_4 (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : cond1_0 i) (x0 : Vec F S10000x128 .f32) (x1 : Vec F S1x128 .f32) :
    out1_A_4 c i a1 h1 a2 h2 a3 h3 a4 h4 a5 h5 hc x0 x1 = k1_pay5 x0 x1 k1_pay2 := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x128) hz, View.readCov_unit_zero (S := S1x128) _ hz]
  simp only [View.readAt_eq_ld, h1.read_unread, h2.read_unread, View.ld_unit_zero (S := S10000x128) hz, View.ld_unit_zero (S := S1x128) hz]

/-- A later point, the shifted block. -/
theorem out_B_2 (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S10000x128 .f32) (x1 xo3 xo4 : Vec F S1x128 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  sl_unfold_words
  rw [View.canon_unit_zero (S := S10000x128) hz]
  simp only [View.readAt_eq_ld, h1.read_unread, h2.read_unread, View.ld_unit_zero (S := S10000x128) hz, View.ld_unit_zero (S := S1x128) hz]

/-- A later point, the column sums: what the point before left plus the block's column sums. -/
theorem out_B_3 (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S10000x128 .f32) (x1 xo3 xo4 : Vec F S1x128 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  sl_unfold_words
  rw [View.canon_unit_zero (S := S1x128) hz]
  simp only [View.readAt_eq_ld, h1.read_unread, h2.read_unread, h4.read_unread, View.ld_unit_zero (S := S10000x128) hz, View.ld_unit_zero (S := S1x128) hz]

/-- A later point, the column sums of squares. -/
theorem out_B_4 (c : Dev nD) (i : grid1.Coords) (a1 : Memref sig .tc .vmem S10000x128 .f32) (h1 : a1.IsWhole)
    (a2 : Memref sig .tc .vmem S1x128 .f32) (h2 : a2.IsWhole) (a3 : Memref sig .tc .vmem S10000x128 .f32) (h3 : a3.IsWhole)
    (a4 : Memref sig .tc .vmem S1x128 .f32) (h4 : a4.IsWhole) (a5 : Memref sig .tc .vmem S1x128 .f32) (h5 : a5.IsWhole)
    (hc : ¬cond1_0 i) (x0 : Vec F S10000x128 .f32) (x1 xo3 xo4 : Vec F S1x128 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  sl_unfold_words
  rw [View.canon_unit_zero (S := S1x128) hz]
  simp only [View.readAt_eq_ld, h1.read_unread, h2.read_unread, h5.read_unread, View.ld_unit_zero (S := S10000x128) hz, View.ld_unit_zero (S := S1x128) hz]

end Pieces

/-! ## The arithmetic of one point, index by index, on extended reals -/

section Payloads

/-- Ten blocks of ten thousand rows are the hundred thousand rows. -/
theorem sum_blocks (f : Fin 100000 → EReal) :
    ∑ t : Fin 10, ∑ q : Fin 10000, f ⟨10000 * t.val + q.val, by have := t.isLt; have := q.isLt; omega⟩ = ∑ r : Fin 100000, f r := by
  rw [← Fintype.sum_prod_type (f := fun p : Fin 10 × Fin 10000 =>
    f ⟨10000 * p.1.val + p.2.val, by have := p.1.isLt; have := p.2.isLt; omega⟩)]
  refine Fintype.sum_equiv (finProdFinEquiv.trans (finCongr (by norm_num))) _ _ (fun p => ?_)
  refine congrArg f (Fin.ext ?_)
  show 10000 * p.1.val + p.2.val = p.2.val + 10000 * p.1.val
  omega

/-- The reduced column index with row `k` put back is `(k, j)`. -/
theorem lift_row (h : S10000x128.Reduces [0] S128) (j : Fin 128) (k : Fin (S10000x128.size 0)) :
    h.lift (ix1 j) k = ix2 (⟨k.val, k.isLt⟩ : Fin 10000) j := by
  funext a; apply Fin.ext
  fin_cases a <;> rfl

/-- A column sum of a block, kept as one row. -/
theorem colsum_apply (Y : FVec Ideal S10000x128 .f32) (j : Fin 128) :
    shapeCast S1x128 (multiReduction (F := Ideal) .add [0] S128 Y 0x00000000#32 reduces_S10000x128_S128 (.inl rfl) rfl)
      shapeCasts_S128_S1x128 (ix2 0 j) = ∑ q : Fin 10000, Y (ix2 q j) := by
  refine (shapeCast_a_1a_apply _ _ 0 j).trans ?_
  refine (Ideal.multiReduction_add_single Y 0x00000000#32 reduces_S10000x128_S128 (.inl rfl) rfl (ix1 j)).trans ?_
  exact Finset.sum_congr rfl fun k _ => congrArg Y (lift_row reduces_S10000x128_S128 j k)

/-- The shifted block at a row and a column. -/
theorem pay3_apply (x0 : Vec Ideal S10000x128 .f32) (x1 : Vec Ideal S1x128 .f32) (q : Fin 10000) (j : Fin 128) :
    k1_pay3 (F := Ideal) x0 x1 (ix2 q j) = x0 (ix2 q j) + x1 (ix2 0 j) := by
  unfold k1_pay3
  show (shapeCast S10000x128 x0 shapeCasts_S10000x128_S10000x128) (ix2 q j)
    + (broadcastTo S10000x128 (shapeCast S1x128 x1 shapeCasts_S1x128_S1x128) broadcasts_S1x128_S10000x128) (ix2 q j) = _
  rw [shapeCast_self, shapeCast_self]
  exact congrArg (x0 (ix2 q j) + ·) (broadcastTo_1b_ab_apply x1 broadcasts_S1x128_S10000x128 q j)

/-- The running column sums after one more block. -/
theorem pay4_apply (x0 : Vec Ideal S10000x128 .f32) (x1 acc : Vec Ideal S1x128 .f32) (j : Fin 128) :
    k1_pay4 (F := Ideal) x0 x1 acc (ix2 0 j) = acc (ix2 0 j) + ∑ q : Fin 10000, (x0 (ix2 q j) + x1 (ix2 0 j)) := by
  unfold k1_pay4
  show (shapeCast S1x128 acc shapeCasts_S1x128_S1x128) (ix2 0 j)
    + (shapeCast S1x128 (multiReduction (F := Ideal) .add [0] S128 (k1_pay3 x0 x1) 0x00000000#32 reduces_S10000x128_S128 (.inl rfl) rfl)
        shapeCasts_S128_S1x128) (ix2 0 j) = _
  rw [shapeCast_self]
  refine congrArg (acc (ix2 0 j) + ·) ?_
  refine (colsum_apply (k1_pay3 x0 x1) j).trans ?_
  exact Finset.sum_congr rfl fun q _ => pay3_apply x0 x1 q j

/-- The running column sums of squares after one more block. -/
theorem pay5_apply (x0 : Vec Ideal S10000x128 .f32) (x1 acc : Vec Ideal S1x128 .f32) (j : Fin 128) :
    k1_pay5 (F := Ideal) x0 x1 acc (ix2 0 j)
      = acc (ix2 0 j) + ∑ q : Fin 10000, (x0 (ix2 q j) + x1 (ix2 0 j)) * (x0 (ix2 q j) + x1 (ix2 0 j)) := by
  unfold k1_pay5
  show (shapeCast S1x128 acc shapeCasts_S1x128_S1x128) (ix2 0 j)
    + (shapeCast S1x128 (multiReduction (F := Ideal) .add [0] S128 (mulf (k1_pay3 x0 x1) (k1_pay3 x0 x1)) 0x00000000#32 reduces_S10000x128_S128 (.inl rfl) rfl)
        shapeCasts_S128_S1x128) (ix2 0 j) = _
  rw [shapeCast_self]
  refine congrArg (acc (ix2 0 j) + ·) ?_
  refine (colsum_apply (mulf (k1_pay3 x0 x1) (k1_pay3 x0 x1)) j).trans ?_
  refine Finset.sum_congr rfl fun q _ => ?_
  show k1_pay3 (F := Ideal) x0 x1 (ix2 q j) * k1_pay3 (F := Ideal) x0 x1 (ix2 q j) = _
  rw [pay3_apply]

/-- The reset rows are zero. -/
theorem pay1_apply (j : Fin 128) : k1_pay1 (F := Ideal) (ix2 0 j) = 0 := Ideal.ofBits_zero_f32
theorem pay2_apply (j : Fin 128) : k1_pay2 (F := Ideal) (ix2 0 j) = 0 := Ideal.ofBits_zero_f32

end Payloads

/-- A function of the rows read at any natural number: zero past the last row. -/
def ext (g : Fin 100000 → EReal) (r : ℕ) : EReal := if h : r < 100000 then g ⟨r, h⟩ else 0

/-- The ten block sums, indexed by the naturals below ten, are the sum over all the rows. -/
theorem sum_range_blocks (g : Fin 100000 → EReal) :
    ∑ t ∈ Finset.range 10, ∑ q : Fin 10000, ext g (10000 * t + q.val) = ∑ r : Fin 100000, g r := by
  rw [Finset.sum_range]
  refine Eq.trans ?_ (sum_blocks g)
  refine Finset.sum_congr rfl fun t _ => Finset.sum_congr rfl fun q _ => ?_
  exact dif_pos _

/-! ## The blocks the windows read, the running sums, and the arrays after the region -/

section Run

variable (V : (c : Dev nD) → (b : Ref sig .tc) → Buf (Elt Ideal) ((c : Thread nD τ).loc b))

/-- The feature array and the bias row as the region finds them, and their blocks at a point, at their literal shapes. -/
abbrev xarr (c : Dev nD) : Vec Ideal S100000x128 .f32 := V c main_v43
abbrev barr (c : Dev nD) : Vec Ideal S1x128 .f32 := V c main_v44
abbrev xblk (c : Dev nD) (t : Fin cfg1.N) : Vec Ideal S10000x128 .f32 := iblk1 V c 0 t
abbrev bblk (c : Dev nD) (t : Fin cfg1.N) : Vec Ideal S1x128 .f32 := iblk1 V c 1 t

/-- The block indices over the grid: the row windows move with the point, the one-row windows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `q` of the block at point `t` is row `10000 t + q` of the array. -/
theorem xblk_apply (c : Dev nD) (t : Fin cfg1.N) (q : Fin 10000) (j : Fin 128) (hr : 10000 * t.val + q.val < 100000) :
    xblk V c t (ix2 q j) = xarr V c (ix2 ⟨10000 * t.val + q.val, hr⟩ j) := by
  obtain ⟨e0, e1, -⟩ := idx_facts t
  show iblk1 V c 0 t (ix2 q j) = _
  unfold iblk1
  rw [View.read_apply]
  show V c main_v43 _ = V c main_v43 _
  refine congrArg (V c main_v43) (funext fun a => Fin.ext ?_)
  match a with
  | ⟨0, _⟩ => show win1_0.index t (0 : Fin 2) * 10000 + 1 * q.val = 10000 * t.val + q.val; rw [e0]; omega
  | ⟨1, _⟩ => show win1_0.index t (1 : Fin 2) * 128 + 1 * j.val = j.val; rw [e1]; omega

/-- The bias block at every point is the bias row. -/
theorem bblk_apply (c : Dev nD) (t : Fin cfg1.N) (j : Fin 128) : bblk V c t (ix2 0 j) = barr V c (ix2 0 j) := by
  obtain ⟨-, -, e0, e1, -⟩ := idx_facts t
  show iblk1 V c 1 t (ix2 0 j) = _
  unfold iblk1
  rw [View.read_apply]
  show V c main_v44 _ = V c main_v44 _
  refine congrArg (V c main_v44) (funext fun a => Fin.ext ?_)
  match a with
  | ⟨0, _⟩ => show win1_1.index t (0 : Fin 2) * 1 + 1 * 0 = 0; rw [e0]
  | ⟨1, _⟩ => show win1_1.index t (1 : Fin 2) * 128 + 1 * j.val = j.val; rw [e1]; omega

/-- The running column sums, and the running column sums of squares, after point `n`. -/
def acc3 (c : Dev nD) : (n : ℕ) → n < cfg1.N → Vec Ideal S1x128 .f32
  | 0, h => k1_pay4 (xblk V c ⟨0, h⟩) (bblk V c ⟨0, h⟩) (k1_pay1 (F := Ideal))
  | n + 1, h => k1_pay4 (xblk V c ⟨n + 1, h⟩) (bblk V c ⟨n + 1, h⟩) (acc3 c n (Nat.lt_of_succ_lt h))
def acc4 (c : Dev nD) : (n : ℕ) → n < cfg1.N → Vec Ideal S1x128 .f32
  | 0, h => k1_pay5 (xblk V c ⟨0, h⟩) (bblk V c ⟨0, h⟩) (k1_pay2 (F := Ideal))
  | n + 1, h => k1_pay5 (xblk V c ⟨n + 1, h⟩) (bblk V c ⟨n + 1, h⟩) (acc4 c n (Nat.lt_of_succ_lt h))

/-- What the three outputs' buffers hold after point `n`: the shifted block and the two running sums. -/
theorem outsAt_eq (c : Dev nD) : ∀ (n : ℕ) (h : n < cfg1.N),
    outsAt1 V c n h = (k1_pay3 (xblk V c ⟨n, h⟩) (bblk V c ⟨n, h⟩), acc3 V c n h, acc4 V c n h)
  | 0, h => by
    rw [outsAt1_A V c ⟨0, h⟩ (Nat.zero_mod 10)]
    rw [out_A_2, out_A_3, out_A_4]
    rfl
  | n + 1, h => by
    have hN : cfg1.N = 10 := N_1
    have hB : ¬(⟨n + 1, h⟩ : Fin cfg1.N).val % 10 = 0 := by dsimp only; omega
    rw [outsAt1_B V c ⟨n + 1, h⟩ hB]
    dsimp only
    rw [out_B_2, out_B_3, out_B_4]
    show (_, k1_pay4 _ _ (outsAt1 V c n _).2.1, k1_pay5 _ _ (outsAt1 V c n _).2.2) = _
    rw [outsAt_eq c n]
    rfl

end Run

section Sums

variable (V : (c : Dev nD) → (b : Ref sig .tc) → Buf (Elt Ideal) ((c : Thread nD τ).loc b))

/-- The shifted feature array. -/
abbrev yarr (c : Dev nD) : SN.Idx → EReal := addBias (xarr V c) (barr V c)

/-- An entry of the shifted block at point `t` is the shifted array's entry at row `10000 t + q`. -/
theorem blk_row (c : Dev nD) (t : Fin cfg1.N) (q : Fin 10000) (j : Fin 128) :
    xblk V c t (ix2 q j) + bblk V c t (ix2 0 j) = ext (fun r => yarr V c (ix2 r j)) (10000 * t.val + q.val) := by
  have ht : t.val < 10 := lt_of_lt_of_eq t.isLt N_1
  have hr : 10000 * t.val + q.val < 100000 := by have := q.isLt; omega
  unfold ext
  rw [dif_pos hr, xblk_apply V c t q j hr, bblk_apply]
  rfl

/-- The same for the squares. -/
theorem blk_row_sq (c : Dev nD) (t : Fin cfg1.N) (q : Fin 10000) (j : Fin 128) :
    (xblk V c t (ix2 q j) + bblk V c t (ix2 0 j)) * (xblk V c t (ix2 q j) + bblk V c t (ix2 0 j))
      = ext (fun r => yarr V c (ix2 r j) * yarr V c (ix2 r j)) (10000 * t.val + q.val) := by
  have ht : t.val < 10 := lt_of_lt_of_eq t.isLt N_1
  have hr : 10000 * t.val + q.val < 100000 := by have := q.isLt; omega
  unfold ext
  rw [dif_pos hr, xblk_apply V c t q j hr, bblk_apply]
  rfl

/-- The running column sums after point `n` are the block sums of the points up to `n`. -/
theorem acc3_apply (c : Dev nD) (j : Fin 128) : ∀ (n : ℕ) (h : n < cfg1.N),
    acc3 V c n h (ix2 0 j) = ∑ t ∈ Finset.range (n + 1), ∑ q : Fin 10000, ext (fun r => yarr V c (ix2 r j)) (10000 * t + q.val)
  | 0, h => by
    rw [Finset.sum_range_one]
    show k1_pay4 (F := Ideal) (xblk V c ⟨0, h⟩) (bblk V c ⟨0, h⟩) (k1_pay1 (F := Ideal)) (ix2 0 j) = _
    rw [pay4_apply, pay1_apply, zero_add]
    exact Finset.sum_congr rfl fun q _ => blk_row V c ⟨0, h⟩ q j
  | n + 1, h => by
    rw [Finset.sum_range_succ, ← acc3_apply c j n (Nat.lt_of_succ_lt h)]
    show k1_pay4 (F := Ideal) (xblk V c ⟨n + 1, h⟩) (bblk V c ⟨n + 1, h⟩) (acc3 V c n _) (ix2 0 j) = _
    rw [pay4_apply]
    exact congrArg (_ + ·) (Finset.sum_congr rfl fun q _ => blk_row V c ⟨n + 1, h⟩ q j)

/-- The running column sums of squares after point `n`. -/
theorem acc4_apply (c : Dev nD) (j : Fin 128) : ∀ (n : ℕ) (h : n < cfg1.N),
    acc4 V c n h (ix2 0 j)
      = ∑ t ∈ Finset.range (n + 1), ∑ q : Fin 10000, ext (fun r => yarr V c (ix2 r j) * yarr V c (ix2 r j)) (10000 * t + q.val)
  | 0, h => by
    rw [Finset.sum_range_one]
    show k1_pay5 (F := Ideal) (xblk V c ⟨0, h⟩) (bblk V c ⟨0, h⟩) (k1_pay2 (F := Ideal)) (ix2 0 j) = _
    rw [pay5_apply, pay2_apply, zero_add]
    exact Finset.sum_congr rfl fun q _ => blk_row_sq V c ⟨0, h⟩ q j
  | n + 1, h => by
    rw [Finset.sum_range_succ, ← acc4_apply c j n (Nat.lt_of_succ_lt h)]
    show k1_pay5 (F := Ideal) (xblk V c ⟨n + 1, h⟩) (bblk V c ⟨n + 1, h⟩) (acc4 V c n _) (ix2 0 j) = _
    rw [pay5_apply]
    exact congrArg (_ + ·) (Finset.sum_congr rfl fun q _ => blk_row_sq V c ⟨n + 1, h⟩ q j)

end Sums

/-! ## The three arrays after the region -/

section Arrays

variable (V : (c : Dev nD) → (b : Ref sig .tc) → Buf (Elt Ideal) ((c : Thread nD τ).loc b))

/-- The two accumulators after the last point, as contents of their arrays (the one block is the whole array). -/
abbrev res3 (c : Dev nD) : Buf (Elt Ideal) ((c : Thread nD τ).loc main_v45_1) :=
  acc3 V c 9 (by rw [show cfg1.N = 10 from N_1]; decide)
abbrev res4 (c : Dev nD) : Buf (Elt Ideal) ((c : Thread nD τ).loc main_v45_2) :=
  acc4 V c 9 (by rw [show cfg1.N = 10 from N_1]; decide)

/-- The one write-back of the column sums, at the last point, writes the running sums after it. -/
theorem flushed3_eq (c : Dev nD) (t : Fin cfg1.N) (hf : (cfg1.win 3).flush t = true) :
    (dat1 V c).flushed 3 t = ((cfg1.win 3).blk t).view.read (Elt Ideal) (res3 V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3, outsAt_eq]
  dsimp only
  have hz' : (fun a => win1_3.index t1_9 a * main_v45_1.ty.shape.size a) = fun _ => 0 := funext fun a => by fin_cases a <;> decide
  exact (Memref.read_access_unit_zero (Elt Ideal) main_v45_1 hz' (fun a => by rw [congrFun hz' a]; simp) (res3 V c)).symm

theorem flushed4_eq (c : Dev nD) (t : Fin cfg1.N) (hf : (cfg1.win 4).flush t = true) :
    (dat1 V c).flushed 4 t = ((cfg1.win 4).blk t).view.read (Elt Ideal) (res4 V c) := by
  have hN : cfg1.N = 10 := N_1
  have h9 : t.val = 9 := by have := (flush1_4 t).mp hf; have := t.isLt; omega
  obtain rfl : t = t1_9 := Fin.ext h9
  show (cfg1.win 4).cut (grid1.coords t1_9) ((dat1 V c).after 4 t1_9) = _
  rw [after1_4, outsAt_eq]
  dsimp only
  have hz' : (fun a => win1_4.index t1_9 a * main_v45_2.ty.shape.size a) = fun _ => 0 := funext fun a => by fin_cases a <;> decide
  exact (Memref.read_access_unit_zero (Elt Ideal) main_v45_2 hz' (fun a => by rw [congrFun hz' a]; simp) (res4 V c)).symm

/-- The column-sum array ends holding the running sums after the last point. -/
theorem final3 (c : Dev nD) : (dat1 V c).arrAt 3 cfg1.N = res3 V c :=
  (dat1 V c).arrAt_eq_of_cover 3 (res3 V c) (flushed3_eq V c) fun i =>
    ⟨t1_9, (flush1_3 t1_9).mpr rfl, by
      show i ∈ ((View.whole main_v45_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

theorem final4 (c : Dev nD) : (dat1 V c).arrAt 4 cfg1.N = res4 V c :=
  (dat1 V c).arrAt_eq_of_cover 4 (res4 V c) (flushed4_eq V c) fun i =>
    ⟨t1_9, (flush1_4 t1_9).mpr rfl, by
      show i ∈ ((View.whole main_v45_2).slice (win1_4.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_4.index t1_9 0 * win1_4.size 0 ≤ (i 0 : Nat) ∧ (i 0 : Nat) < win1_4.index t1_9 0 * win1_4.size 0 + win1_4.xsize (grid1.coords t1_9) 0
                  rw [show win1_4.index t1_9 0 * win1_4.size 0 = 0 from by decide +kernel, show win1_4.xsize (grid1.coords t1_9) 0 = 1 from by decide +kernel]; omega
      | ⟨1, _⟩ => show win1_4.index t1_9 1 * win1_4.size 1 ≤ (i 1 : Nat) ∧ (i 1 : Nat) < win1_4.index t1_9 1 * win1_4.size 1 + win1_4.xsize (grid1.coords t1_9) 1
                  rw [show win1_4.index t1_9 1 * win1_4.size 1 = 0 from by decide +kernel, show win1_4.xsize (grid1.coords t1_9) 1 = 128 from by decide +kernel]; omega⟩

/-- The column sums of the shifted features. -/
theorem arr3 (c : Dev nD) : ((dat1 (F := Ideal) V c).arrAt 3 cfg1.N : GcnBn.SR.Idx → EReal)
    = GcnBn.sumRow (GcnBn.addBias (V c main_v43) (V c main_v44)) := by
  refine (final3 V c).trans ?_
  funext i
  obtain ⟨u, j, rfl⟩ : ∃ (u : Fin 1) (j : Fin 128), i = ix2 u j := ⟨i 0, i 1, eq_ix2 i⟩
  obtain rfl : u = 0 := Subsingleton.elim _ _
  refine (acc3_apply V c j 9 _).trans ?_
  exact sum_range_blocks (fun r => yarr V c (ix2 r j))

/-- The column sums of squares of the shifted features. -/
theorem arr4 (c : Dev nD) : ((dat1 (F := Ideal) V c).arrAt 4 cfg1.N : GcnBn.SR.Idx → EReal)
    = GcnBn.sumSqRow (GcnBn.addBias (V c main_v43) (V c main_v44)) := by
  refine (final4 V c).trans ?_
  funext i
  obtain ⟨u, j, rfl⟩ : ∃ (u : Fin 1) (j : Fin 128), i = ix2 u j := ⟨i 0, i 1, eq_ix2 i⟩
  obtain rfl : u = 0 := Subsingleton.elim _ _
  refine (acc4_apply V c j 9 _).trans ?_
  exact sum_range_blocks (fun r => yarr V c (ix2 r j) * yarr V c (ix2 r j))

/-- What point `t` writes back of the shifted features is block `t` of the shifted array. -/
theorem flushed2_eq (c : Dev nD) (t : Fin cfg1.N) :
    (dat1 V c).flushed 2 t = ((cfg1.win 2).blk t).view.read (Elt Ideal) (yarr V c) := by
  have ht : t.val < 10 := lt_of_lt_of_eq t.isLt N_1
  show (cfg1.win 2).cut (grid1.coords t) ((dat1 V c).after 2 t) = _
  rw [after1_2, outsAt_eq]
  dsimp only
  obtain ⟨-, -, -, -, e0, e1⟩ := idx_facts t
  funext y
  obtain ⟨q, j, rfl⟩ : ∃ (q : Fin 10000) (j : Fin 128), y = ix2 q j := ⟨y 0, y 1, eq_ix2 y⟩
  have hr : 10000 * t.val + q.val < 100000 := by have := q.isLt; omega
  show k1_pay3 (F := Ideal) (xblk V c t) (bblk V c t) (ix2 q j) = yarr V c (((cfg1.win 2).blk t).view.emb (ix2 q j))
  have he : ((cfg1.win 2).blk t).view.emb (ix2 q j) = ix2 (⟨10000 * t.val + q.val, hr⟩ : Fin 100000) j := by
    funext a; apply Fin.ext
    match a with
    | ⟨0, _⟩ => show win1_2.index t (0 : Fin 2) * 10000 + 1 * q.val = 10000 * t.val + q.val; rw [e0]; omega
    | ⟨1, _⟩ => show win1_2.index t (1 : Fin 2) * 128 + 1 * j.val = j.val; rw [e1]; omega
  rw [he, pay3_apply, xblk_apply V c t q j hr, bblk_apply]
  rfl

/-- An index of the array is in point `t`'s block iff each coordinate is in the block's range on its axis. -/
theorem mem_blk2 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45_0).slice (win1_2.rect t)).set ↔ _
  rw [View.set_slice_whole, Rect.mem_set_unit]
  exact Iff.rfl

/-- Row `r` is in the block of point `r / 10000`. -/
theorem cover2 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, e0, e1⟩ := idx_facts t
  refine ⟨t, flush1_2 t, ?_⟩
  rw [mem_blk2]
  intro a
  match a with
  | ⟨0, _⟩ => show win1_2.index t (0 : Fin 2) * 10000 ≤ (i 0).val ∧ (i 0).val < win1_2.index t (0 : Fin 2) * 10000 + 10000; rw [e0]; omega
  | ⟨1, _⟩ => show win1_2.index t (1 : Fin 2) * 128 ≤ (i 1).val ∧ (i 1).val < win1_2.index t (1 : Fin 2) * 128 + 128; rw [e1]; omega

/-- The shifted features. -/
theorem arr2 (c : Dev nD) : ((dat1 (F := Ideal) V c).arrAt 2 cfg1.N : GcnBn.SN.Idx → EReal)
    = GcnBn.addBias (V c main_v43) (V c main_v44) :=
  (dat1 V c).arrAt_eq_of_cover 2 (yarr V c) (fun t _ => flushed2_eq V c t) cover2

end Arrays

end Cert.KernelIdeal.Reg1
end
-- ==== Proof.Region2.lean ====
/-
  Region 2 (the normalisation kernel): what its output array holds after the region, as one function of the arrays the
  region finds. Each of the ten points stores, into its block of 10000 rows, the normalised, scaled, shifted, clamped
  block of the aggregate plus the residual block; the ten blocks cover the 100000 rows.
-/
import proofs.«125161_j88390426952001_1_alg».proof.Proof.Gen.KernelIdeal.Frame
import proofs.«125161_j88390426952001_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Reg2

open Cert.KernelIdeal Cert.KernelIdeal.Gen Idealize.ShloMosaic Idealize.ShloMosaic.TcCoe Idealize.ShloMosaic.ValueIdx Idealize.SL.Sem GcnBn
open Idealize.ShloMosaic.Pipeline (Dat)

variable (V : (c : Dev nD) → (b : Ref sig .tc) → Buf (Elt Ideal) ((c : Thread nD τ).loc b))

/-! ## The body's arithmetic at one entry of a block -/

/-- The stored value at row `q`, column `j` of the block: the aggregate's entry minus the column's mean, times the
    reciprocal root of the column's variance plus the stabiliser, times the scale, plus the shift, clamped below at
    zero, plus the residual's entry. -/
theorem pay_apply (v0 : Vec Ideal S1x128 .f32) (v5 : Vec Ideal S10000x128 .f32) (v7 v13 v17 : Vec Ideal S1x128 .f32)
    (v23 : Vec Ideal S10000x128 .f32) (q : Fin 10000) (j : Fin 128) :
    k2_pay1 v0 v5 v7 v13 v17 v23 (ix2 q j)
      = max ((v5 (ix2 q j) - v7 (ix2 0 j)) * Ideal.rsqrt (v0 (ix2 0 j) + eps) * v13 (ix2 0 j) + v17 (ix2 0 j)) 0
          + v23 (ix2 q j) := by
  unfold k2_pay1
  simp only [shapeCast_self]
  rw [addf_apply, maximumf_apply, addf_apply, mulf_apply, mulf_apply, subf_apply, broadcast_apply]
  rw [broadcastTo_1b_ab_apply, broadcastTo_1b_ab_apply, broadcastTo_1b_ab_apply, broadcastTo_1b_ab_apply]
  show max ((v5 (ix2 q j) - v7 (ix2 0 j)) * Ideal.rsqrt (v0 (ix2 0 j) + Ideal.ofBits .f32 0x3727C5AC#32) * v13 (ix2 0 j)
      + v17 (ix2 0 j)) (Ideal.ofBits .f32 0x00000000#32) + v23 (ix2 q j) = _
  rw [Ideal.ofBits_zero_f32]
  rfl

/-! ## The blocks the body reads -/

theorem hz : (![0, 0] : Fin 2 → Nat) = fun _ => 0 := funext fun a => by fin_cases a <;> rfl

/-- The printed index maps, decided once over the grid: the row-block windows sit at block `t` of the rows, the
    one-row windows at their only block. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

theorem t_lt (t : Fin cfg2.N) : t.val < 10 := by have := t.isLt; have h : cfg2.N = 10 := N_2; omega

/-- Row `q` of point `t`'s block is row `10000 t + q` of the array. -/
abbrev rowAt (t : Fin cfg2.N) (q : Fin 10000) : Fin 100000 := ⟨t.val * 10000 + q.val, by have := t_lt t; have := q.isLt; omega⟩

/-- The aggregate's block at point `t` is rows `10000 t …` of the aggregate. -/
theorem blk0_apply (c : Dev nD) (t : Fin cfg2.N) (q : Fin 10000) (j : Fin 128) :
    (iblk2 V c 0 t : Vec Ideal S10000x128 .f32) (ix2 q j) = (V c main_v45_0 : SN.Idx → EReal) (ix2 (rowAt t q) j) := by
  obtain ⟨⟨e0, e1⟩, -⟩ := idx_facts t
  unfold iblk2
  rw [View.read_apply]
  show (V c main_v45_0 : SN.Idx → EReal) _ = (V c main_v45_0 : SN.Idx → EReal) _
  congr 1
  funext a
  apply Fin.ext
  match a with
  | ⟨0, _⟩ => show win2_0.index t (0 : Fin 2) * 10000 + 1 * q.val = t.val * 10000 + q.val; rw [e0]; omega
  | ⟨1, _⟩ => show win2_0.index t (1 : Fin 2) * 128 + 1 * j.val = j.val; rw [e1]; omega

/-- The residual's block at point `t` is rows `10000 t …` of the residual. -/
theorem blk1_apply (c : Dev nD) (t : Fin cfg2.N) (q : Fin 10000) (j : Fin 128) :
    (iblk2 V c 1 t : Vec Ideal S10000x128 .f32) (ix2 q j) = (V c main_arg0 : SN.Idx → EReal) (ix2 (rowAt t q) j) := by
  obtain ⟨-, ⟨e0, e1⟩, -⟩ := idx_facts t
  unfold iblk2
  rw [View.read_apply]
  show (V c main_arg0 : SN.Idx → EReal) _ = (V c main_arg0 : SN.Idx → EReal) _
  congr 1
  funext a
  apply Fin.ext
  match a with
  | ⟨0, _⟩ => show win2_1.index t (0 : Fin 2) * 10000 + 1 * q.val = t.val * 10000 + q.val; rw [e0]; omega
  | ⟨1, _⟩ => show win2_1.index t (1 : Fin 2) * 128 + 1 * j.val = j.val; rw [e1]; omega

/-- The mean row's block at every point is the mean row. -/
theorem blk2_apply (c : Dev nD) (t : Fin cfg2.N) (j : Fin 128) :
    (iblk2 V c 2 t : Vec Ideal S1x128 .f32) (ix2 0 j) = (V c main_v54 : SR.Idx → EReal) (ix2 0 j) := by
  obtain ⟨-, -, ⟨e0, e1⟩, -⟩ := idx_facts t
  unfold iblk2
  rw [View.read_apply]
  show (V c main_v54 : SR.Idx → EReal) _ = (V c main_v54 : SR.Idx → EReal) _
  congr 1
  funext a
  apply Fin.ext
  match a with
  | ⟨0, _⟩ => show win2_2.index t (0 : Fin 2) * 1 + 1 * 0 = 0; rw [e0]
  | ⟨1, _⟩ => show win2_2.index t (1 : Fin 2) * 128 + 1 * j.val = j.val; rw [e1]; omega

/-- The variance row's block at every point is the variance row. -/
theorem blk3_apply (c : Dev nD) (t : Fin cfg2.N) (j : Fin 128) :
    (iblk2 V c 3 t : Vec Ideal S1x128 .f32) (ix2 0 j) = (V c main_v55 : SR.Idx → EReal) (ix2 0 j) := by
  obtain ⟨-, -, -, ⟨e0, e1⟩, -⟩ := idx_facts t
  unfold iblk2
  rw [View.read_apply]
  show (V c main_v55 : SR.Idx → EReal) _ = (V c main_v55 : SR.Idx → EReal) _
  congr 1
  funext a
  apply Fin.ext
  match a with
  | ⟨0, _⟩ => show win2_3.index t (0 : Fin 2) * 1 + 1 * 0 = 0; rw [e0]
  | ⟨1, _⟩ => show win2_3.index t (1 : Fin 2) * 128 + 1 * j.val = j.val; rw [e1]; omega

/-- The scale row's block at every point is the scale row. -/
theorem blk4_apply (c : Dev nD) (t : Fin cfg2.N) (j : Fin 128) :
    (iblk2 V c 4 t : Vec Ideal S1x128 .f32) (ix2 0 j) = (V c main_v56 : SR.Idx → EReal) (ix2 0 j) := by
  obtain ⟨-, -, -, -, ⟨e0, e1⟩, -⟩ := idx_facts t
  unfold iblk2
  rw [View.read_apply]
  show (V c main_v56 : SR.Idx → EReal) _ = (V c main_v56 : SR.Idx → EReal) _
  congr 1
  funext a
  apply Fin.ext
  match a with
  | ⟨0, _⟩ => show win2_4.index t (0 : Fin 2) * 1 + 1 * 0 = 0; rw [e0]
  | ⟨1, _⟩ => show win2_4.index t (1 : Fin 2) * 128 + 1 * j.val = j.val; rw [e1]; omega

/-- The shift row's block at every point is the shift row. -/
theorem blk5_apply (c : Dev nD) (t : Fin cfg2.N) (j : Fin 128) :
    (iblk2 V c 5 t : Vec Ideal S1x128 .f32) (ix2 0 j) = (V c main_v57 : SR.Idx → EReal) (ix2 0 j) := by
  obtain ⟨-, -, -, -, -, ⟨e0, e1⟩, -⟩ := idx_facts t
  unfold iblk2
  rw [View.read_apply]
  show (V c main_v57 : SR.Idx → EReal) _ = (V c main_v57 : SR.Idx → EReal) _
  congr 1
  funext a
  apply Fin.ext
  match a with
  | ⟨0, _⟩ => show win2_5.index t (0 : Fin 2) * 1 + 1 * 0 = 0; rw [e0]
  | ⟨1, _⟩ => show win2_5.index t (1 : Fin 2) * 128 + 1 * j.val = j.val; rw [e1]; omega

/-! ## What a point writes back, and the array -/

/-- The array the region leaves: the normalisation of the aggregate by the given rows, plus the residual. -/
abbrev G (c : Dev nD) : SN.Idx → EReal :=
  bnReluRows (V c main_v45_0) (V c main_arg0) (V c main_v54) (V c main_v55) (V c main_v56) (V c main_v57)

/-- Where entry `(q, j)` of point `t`'s output block sits in the array. -/
theorem emb6 (t : Fin cfg2.N) (q : Fin 10000) (j : Fin 128) :
    (((cfg2.win 6).blk t).view.emb (ix2 q j) : SN.Idx) = ix2 (rowAt t q) j := by
  obtain ⟨-, -, -, -, -, -, ⟨e0, e1⟩⟩ := idx_facts t
  funext a
  apply Fin.ext
  match a with
  | ⟨0, _⟩ => show win2_6.index t (0 : Fin 2) * 10000 + 1 * q.val = t.val * 10000 + q.val; rw [e0]; omega
  | ⟨1, _⟩ => show win2_6.index t (1 : Fin 2) * 128 + 1 * j.val = j.val; rw [e1]; omega

/-- What point `t` writes back is block `t` of that array. -/
theorem flushed_eq (c : Dev nD) (t : Fin cfg2.N) :
    (dat2 (F := Ideal) V c).flushed 6 t = ((cfg2.win 6).blk t).view.read (Elt Ideal) (G V c) := by
  show (cfg2.win 6).cut (grid2.coords t) ((dat2 (F := Ideal) V c).after 6 t) = _
  rw [after2_6]
  unfold out2_6
  rw [View.canon_unit_zero hz]
  simp only [View.ld_unit_zero (S := S10000x128) hz, View.ld_unit_zero (S := S1x128) hz]
  funext y
  obtain ⟨q, j, rfl⟩ : ∃ (q : Fin 10000) (j : Fin 128), y = ix2 q j := ⟨y 0, y 1, eq_ix2 y⟩
  show k2_pay1 (iblk2 V c 3 t) (iblk2 V c 0 t) (iblk2 V c 2 t) (iblk2 V c 4 t) (iblk2 V c 5 t) (iblk2 V c 1 t) (ix2 q j)
    = G V c (((cfg2.win 6).blk t).view.emb (ix2 q j))
  rw [emb6, pay_apply, blk0_apply, blk1_apply, blk2_apply, blk3_apply, blk4_apply, blk5_apply]
  rfl

/-- An index of the array is in point `t`'s block iff each coordinate is in the block's range on its axis. -/
theorem mem_blk (t : Fin cfg2.N) (i : SN.Idx) :
    i ∈ ((cfg2.win 6).blk t).view.set ↔ ∀ a : Fin 2, win2_6.index t a * S10000x128.size a ≤ (i a).val
      ∧ (i a).val < win2_6.index t a * S10000x128.size a + S10000x128.size a := by
  show i ∈ ((View.whole main_v58).slice (win2_6.rect t)).set ↔ _
  rw [View.set_slice_whole, Rect.mem_set_unit]
  exact Iff.rfl

/-- Every entry of the array is in the block of the point its row falls in: row `r` in point `r / 10000`. -/
theorem cover (i : SN.Idx) : ∃ t : Fin cfg2.N, (cfg2.win 6).flush t = true ∧ i ∈ ((cfg2.win 6).blk t).view.set := by
  have hi0 : (i 0).val < 100000 := idx2_lt0 i
  have hi1 : (i 1).val < 128 := idx2_lt1 i
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, ⟨e0, e1⟩⟩ := idx_facts t
  refine ⟨t, flush2_6 t, ?_⟩
  rw [mem_blk]
  intro a
  match a with
  | ⟨0, _⟩ =>
    show win2_6.index t (0 : Fin 2) * 10000 ≤ (i 0).val ∧ (i 0).val < win2_6.index t (0 : Fin 2) * 10000 + 10000
    rw [e0, ht]; omega
  | ⟨1, _⟩ =>
    show win2_6.index t (1 : Fin 2) * 128 ≤ (i 1).val ∧ (i 1).val < win2_6.index t (1 : Fin 2) * 128 + 128
    rw [e1]; omega

/-- The output array after the region: the normalisation of the aggregate by the given mean, variance, scale and shift
    rows, clamped at zero, plus the residual. -/
theorem arr6 (c : Dev nD) : ((dat2 (F := Ideal) V c).arrAt 6 cfg2.N : GcnBn.SN.Idx → EReal)
    = GcnBn.bnReluRows (V c main_v45_0) (V c main_arg0) (V c main_v54) (V c main_v55) (V c main_v56) (V c main_v57) :=
  (dat2 (F := Ideal) V c).arrAt_eq_of_cover 6 (G V c) (fun t _ => flushed_eq V c t) cover

end Cert.KernelIdeal.Reg2

end
-- ==== Proof.Chain.lean ====
/-
  The host chain both programs run between the matrix product and the batch normalisation: the rows of the
  product are gathered at the source nodes, scaled by the edge norm and added into the destination nodes. It is
  carried as ONE function `aggOf` of the product and the edge list; the two programs' spellings of it are compared
  by unfolding definitions only, at an arbitrary float family. The matrix product and the bias broadcast are then
  read at the extended reals.
-/
import proofs.«125161_j88390426952001_1_alg».proof.Proof.Gen.KernelIdeal.Frame
import proofs.«125161_j88390426952001_1_alg».proof.Proof.RefRead
import proofs.«125161_j88390426952001_1_alg».proof.Proof.Spec
import Idealize.ShloMosaic.Lib.StableHlo.Run
import Idealize.ShloMosaic.Lib.ValueLayout

set_option maxRecDepth 16384

noncomputable section

namespace Cert.KernelIdeal.Chain

open Idealize.ShloMosaic Idealize.ShloMosaic.TcCoe Idealize.SL.Sem
open Cert.KernelIdeal Cert.KernelIdeal.Gen

variable {F : FTy → Type} [FloatOps F]

/-- The aggregation: gather the rows of `h` at the source nodes, scale by the edge norm, add into the destination nodes. -/
def aggOf (h : (⟨Cert.ReferenceIdeal.S100000x128, .f32⟩ : BufTy).Contents (Elt F))
    (x1 : (⟨Cert.ReferenceIdeal.S2x600000, .i32⟩ : BufTy).Contents (Elt F)) :
    (⟨Cert.ReferenceIdeal.S100000x128, .f32⟩ : BufTy).Contents (Elt F) :=
  Host.scatterAdd Cert.ReferenceIdeal.scatter_S100000x128_S700000x1_S700000x128_1_0_0_1
    (Cert.ReferenceIdeal.ReadP.val_main_v41 (F := F)) (Cert.ReferenceIdeal.ReadP.val_main_v42 (F := F) x1)
    (mulf (Host.gather Cert.ReferenceIdeal.gather_S100000x128_S700000x1_S700000x128_1_0_n_n_0_1_1128 h
      (Cert.ReferenceIdeal.ReadP.val_main_v36 (F := F) x1)) (Cert.ReferenceIdeal.ReadP.val_main_v39 (F := F) x1))

/-- The reference's aggregated array is the aggregation of its matrix product. -/
theorem ref_v43 (x0 : (⟨Cert.ReferenceIdeal.S100000x128, .f32⟩ : BufTy).Contents (Elt F))
    (x1 : (⟨Cert.ReferenceIdeal.S2x600000, .i32⟩ : BufTy).Contents (Elt F))
    (x2 : (⟨Cert.ReferenceIdeal.S128x128, .f32⟩ : BufTy).Contents (Elt F)) :
    Cert.ReferenceIdeal.ReadP.val_main_v43 (F := F) x0 x1 x2
      = aggOf (Cert.ReferenceIdeal.ReadP.val_main_v30 (F := F) x0 x2) x1 := by
  unfold Cert.ReferenceIdeal.ReadP.val_main_v43 Cert.ReferenceIdeal.ReadP.val_main_v40
    Cert.ReferenceIdeal.ReadP.val_main_v37 aggOf
  rfl

/-! ## The first host stretch, over any entry contents -/

/-- The source-node list (the edge sources followed by the self loops) after the first stretch. -/
theorem ops0_v3 (X : Valuation τ sig (Elt F)) :
    StableHlo.after hostOps0 X (Proc.devRef .tc main_v3)
      = Cert.ReferenceIdeal.ReadP.val_main_v3 (F := F) (X (Proc.devRef .tc main_arg1)) := by
  after_results
  unfold Cert.ReferenceIdeal.ReadP.val_main_v3 Cert.ReferenceIdeal.ReadP.val_main_v2
    Cert.ReferenceIdeal.ReadP.val_main_v1 Cert.ReferenceIdeal.ReadP.val_main_v0
  rfl

/-- The destination-node list after the first stretch. -/
theorem ops0_v6 (X : Valuation τ sig (Elt F)) :
    StableHlo.after hostOps0 X (Proc.devRef .tc main_v6)
      = Cert.ReferenceIdeal.ReadP.val_main_v6 (F := F) (X (Proc.devRef .tc main_arg1)) := by
  after_results
  unfold Cert.ReferenceIdeal.ReadP.val_main_v6 Cert.ReferenceIdeal.ReadP.val_main_v5 Cert.ReferenceIdeal.ReadP.val_main_v4 Cert.ReferenceIdeal.ReadP.val_main_v0
  rfl

/-- Which nodes have a positive degree, after the first stretch. -/
theorem ops0_v12 (X : Valuation τ sig (Elt F)) :
    StableHlo.after hostOps0 X (Proc.devRef .tc main_v12)
      = Cert.ReferenceIdeal.ReadP.val_main_v12 (F := F) (X (Proc.devRef .tc main_arg1)) := by
  after_results
  unfold Cert.ReferenceIdeal.ReadP.val_main_v12 Cert.ReferenceIdeal.ReadP.val_main_v11 Cert.ReferenceIdeal.ReadP.val_main_cst_1 Cert.ReferenceIdeal.ReadP.val_main_v10 Cert.ReferenceIdeal.ReadP.val_main_v9 Cert.ReferenceIdeal.ReadP.val_main_v8 Cert.ReferenceIdeal.ReadP.val_main_cst_0 Cert.ReferenceIdeal.ReadP.val_main_v7 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

/-- The reciprocal square roots of the degrees, after the first stretch. -/
theorem ops0_v13 (X : Valuation τ sig (Elt F)) :
    StableHlo.after hostOps0 X (Proc.devRef .tc main_v13)
      = Cert.ReferenceIdeal.ReadP.val_main_v13 (F := F) (X (Proc.devRef .tc main_arg1)) := by
  after_results
  unfold Cert.ReferenceIdeal.ReadP.val_main_v13 Cert.ReferenceIdeal.ReadP.val_main_v10 Cert.ReferenceIdeal.ReadP.val_main_v9 Cert.ReferenceIdeal.ReadP.val_main_v8 Cert.ReferenceIdeal.ReadP.val_main_cst_0 Cert.ReferenceIdeal.ReadP.val_main_v7 Cert.ReferenceIdeal.ReadP.val_main_cst Cert.ReferenceIdeal.ReadP.val_main_v6 Cert.ReferenceIdeal.ReadP.val_main_v5 Cert.ReferenceIdeal.ReadP.val_main_v4 Cert.ReferenceIdeal.ReadP.val_main_v0
  rfl

/-- The zero the degree-zero nodes take, after the first stretch. -/
theorem ops0_cst_2 (X : Valuation τ sig (Elt F)) :
    StableHlo.after hostOps0 X (Proc.devRef .tc main_cst_2) = Cert.ReferenceIdeal.ReadP.val_main_cst_2 (F := F) := by
  after_results
  unfold Cert.ReferenceIdeal.ReadP.val_main_cst_2
  rfl

/-! ## The second and third host stretches, over any entry contents that hold the first stretch's values -/

/-- The second stretch leaves the two node lists as they were. -/
theorem ops0_1_v3 (X : Valuation τ sig (Elt F)) :
    StableHlo.after hostOps0_1 X (Proc.devRef .tc main_v3) = X (Proc.devRef .tc main_v3) := by
  after_results <;> rfl
theorem ops0_1_v6 (X : Valuation τ sig (Elt F)) :
    StableHlo.after hostOps0_1 X (Proc.devRef .tc main_v6) = X (Proc.devRef .tc main_v6) := by
  after_results <;> rfl

/-- The node norm: the reciprocal square root of the degree where it is positive, zero elsewhere. -/
theorem ops0_1_v14 (X : Valuation τ sig (Elt F)) (x1 : (⟨Cert.ReferenceIdeal.S2x600000, .i32⟩ : BufTy).Contents (Elt F))
    (h12 : X (Proc.devRef .tc main_v12) = Cert.ReferenceIdeal.ReadP.val_main_v12 (F := F) x1)
    (h13 : X (Proc.devRef .tc main_v13) = Cert.ReferenceIdeal.ReadP.val_main_v13 (F := F) x1)
    (hc2 : X (Proc.devRef .tc main_cst_2) = Cert.ReferenceIdeal.ReadP.val_main_cst_2 (F := F)) :
    StableHlo.after hostOps0_1 X (Proc.devRef .tc main_v14) = Cert.ReferenceIdeal.ReadP.val_main_v14 (F := F) x1 := by
  after_results
  rw [h12, h13, hc2]
  unfold Cert.ReferenceIdeal.ReadP.val_main_v14 Cert.ReferenceIdeal.ReadP.val_main_call0_v1 Cert.ReferenceIdeal.ReadP.val_main_call0_v0
  rfl

/-- The third stretch leaves the two node lists as they were. -/
theorem ops0_2_v3 (X : Valuation τ sig (Elt F)) :
    StableHlo.after hostOps0_2 X (Proc.devRef .tc main_v3) = X (Proc.devRef .tc main_v3) := by
  after_results <;> rfl
theorem ops0_2_v6 (X : Valuation τ sig (Elt F)) :
    StableHlo.after hostOps0_2 X (Proc.devRef .tc main_v6) = X (Proc.devRef .tc main_v6) := by
  after_results <;> rfl

set_option maxHeartbeats 4000000 in
/-- The edge norm: the product of the node norms at the edge's two ends. -/
theorem ops0_2_v29 (X : Valuation τ sig (Elt F)) (x1 : (⟨Cert.ReferenceIdeal.S2x600000, .i32⟩ : BufTy).Contents (Elt F))
    (h3 : X (Proc.devRef .tc main_v3) = Cert.ReferenceIdeal.ReadP.val_main_v3 (F := F) x1)
    (h6 : X (Proc.devRef .tc main_v6) = Cert.ReferenceIdeal.ReadP.val_main_v6 (F := F) x1)
    (h14 : X (Proc.devRef .tc main_v14) = Cert.ReferenceIdeal.ReadP.val_main_v14 (F := F) x1) :
    StableHlo.after hostOps0_2 X (Proc.devRef .tc main_v29) = Cert.ReferenceIdeal.ReadP.val_main_v29 (F := F) x1 := by
  after_results_simp
  rw [h3, h6, h14]
  unfold Cert.ReferenceIdeal.ReadP.val_main_v29 Cert.ReferenceIdeal.ReadP.val_main_v28 Cert.ReferenceIdeal.ReadP.val_main_v27 Cert.ReferenceIdeal.ReadP.val_main_v26 Cert.ReferenceIdeal.ReadP.val_main_v25 Cert.ReferenceIdeal.ReadP.val_main_v24 Cert.ReferenceIdeal.ReadP.val_main_c_5 Cert.ReferenceIdeal.ReadP.val_main_v23 Cert.ReferenceIdeal.ReadP.val_main_v22 Cert.ReferenceIdeal.ReadP.val_main_c_4 Cert.ReferenceIdeal.ReadP.val_main_v21 Cert.ReferenceIdeal.ReadP.val_main_v20 Cert.ReferenceIdeal.ReadP.val_main_v19 Cert.ReferenceIdeal.ReadP.val_main_v18 Cert.ReferenceIdeal.ReadP.val_main_v17 Cert.ReferenceIdeal.ReadP.val_main_c_3 Cert.ReferenceIdeal.ReadP.val_main_v16 Cert.ReferenceIdeal.ReadP.val_main_v15 Cert.ReferenceIdeal.ReadP.val_main_c
  rfl

/-! ## The stretch after the first region, over any entry contents that hold the node lists and the edge norm -/

set_option maxHeartbeats 4000000 in
/-- The aggregated array is the aggregation of whatever the matrix product's buffer holds. -/
theorem ops1_v43 (X : Valuation τ sig (Elt F)) (x1 : (⟨Cert.ReferenceIdeal.S2x600000, .i32⟩ : BufTy).Contents (Elt F))
    (h3 : X (Proc.devRef .tc main_v3) = Cert.ReferenceIdeal.ReadP.val_main_v3 (F := F) x1)
    (h6 : X (Proc.devRef .tc main_v6) = Cert.ReferenceIdeal.ReadP.val_main_v6 (F := F) x1)
    (h29 : X (Proc.devRef .tc main_v29) = Cert.ReferenceIdeal.ReadP.val_main_v29 (F := F) x1) :
    StableHlo.after hostOps1 X (Proc.devRef .tc main_v43) = aggOf (X (Proc.devRef .tc main_v30)) x1 := by
  after_results_simp
  rw [h3, h6, h29]
  unfold aggOf
  unfold Cert.ReferenceIdeal.ReadP.val_main_v42 Cert.ReferenceIdeal.ReadP.val_main_v41 Cert.ReferenceIdeal.ReadP.val_main_cst_8 Cert.ReferenceIdeal.ReadP.val_main_v39 Cert.ReferenceIdeal.ReadP.val_main_v38 Cert.ReferenceIdeal.ReadP.val_main_v36 Cert.ReferenceIdeal.ReadP.val_main_v35 Cert.ReferenceIdeal.ReadP.val_main_v34 Cert.ReferenceIdeal.ReadP.val_main_v33 Cert.ReferenceIdeal.ReadP.val_main_c_7 Cert.ReferenceIdeal.ReadP.val_main_v32 Cert.ReferenceIdeal.ReadP.val_main_v31 Cert.ReferenceIdeal.ReadP.val_main_c_6
  rfl

/-- The bias as one row. -/
theorem ops1_v44 (X : Valuation τ sig (Elt F)) :
    StableHlo.after hostOps1 X (Proc.devRef .tc main_v44)
      = shapeCast S1x128 (X (Proc.devRef .tc main_arg3)) shapeCasts_S128_S1x128 := by
  after_results <;> rfl

/-! ## The run's boundaries -/

variable (m : (ℓ : Loc nD τ sig) → Buf (Elt F) ℓ) (ρ : Dev nD → PrngReg)

theorem W1_v3 (c : Dev nD) : W1 m ρ c (Proc.devRef .tc main_v3)
    = Cert.ReferenceIdeal.ReadP.val_main_v3 (F := F) (m ((c.tc : Thread nD τ).loc main_arg1)) := ops0_v3 (W0 m ρ c)
theorem W1_v6 (c : Dev nD) : W1 m ρ c (Proc.devRef .tc main_v6)
    = Cert.ReferenceIdeal.ReadP.val_main_v6 (F := F) (m ((c.tc : Thread nD τ).loc main_arg1)) := ops0_v6 (W0 m ρ c)
theorem W2_v3 (c : Dev nD) : W2 m ρ c (Proc.devRef .tc main_v3)
    = Cert.ReferenceIdeal.ReadP.val_main_v3 (F := F) (m ((c.tc : Thread nD τ).loc main_arg1)) :=
  (ops0_1_v3 (W1 m ρ c)).trans (W1_v3 m ρ c)
theorem W2_v6 (c : Dev nD) : W2 m ρ c (Proc.devRef .tc main_v6)
    = Cert.ReferenceIdeal.ReadP.val_main_v6 (F := F) (m ((c.tc : Thread nD τ).loc main_arg1)) :=
  (ops0_1_v6 (W1 m ρ c)).trans (W1_v6 m ρ c)
theorem W2_v14 (c : Dev nD) : W2 m ρ c (Proc.devRef .tc main_v14)
    = Cert.ReferenceIdeal.ReadP.val_main_v14 (F := F) (m ((c.tc : Thread nD τ).loc main_arg1)) :=
  ops0_1_v14 (W1 m ρ c) _ (ops0_v12 (W0 m ρ c)) (ops0_v13 (W0 m ρ c)) (ops0_cst_2 (W0 m ρ c))
theorem W3_v3 (c : Dev nD) : W3 m ρ c (Proc.devRef .tc main_v3)
    = Cert.ReferenceIdeal.ReadP.val_main_v3 (F := F) (m ((c.tc : Thread nD τ).loc main_arg1)) :=
  (ops0_2_v3 (W2 m ρ c)).trans (W2_v3 m ρ c)
theorem W3_v6 (c : Dev nD) : W3 m ρ c (Proc.devRef .tc main_v6)
    = Cert.ReferenceIdeal.ReadP.val_main_v6 (F := F) (m ((c.tc : Thread nD τ).loc main_arg1)) :=
  (ops0_2_v6 (W2 m ρ c)).trans (W2_v6 m ρ c)
theorem W3_v29 (c : Dev nD) : W3 m ρ c (Proc.devRef .tc main_v29)
    = Cert.ReferenceIdeal.ReadP.val_main_v29 (F := F) (m ((c.tc : Thread nD τ).loc main_arg1)) :=
  ops0_2_v29 (W2 m ρ c) _ (W2_v3 m ρ c) (W2_v6 m ρ c) (W2_v14 m ρ c)

/-- At the first region's exit the source-node list is the reference's. -/
theorem W4_v3 (c : Dev nD) : W4 m ρ c (Proc.devRef .tc main_v3)
    = Cert.ReferenceIdeal.ReadP.val_main_v3 (F := F) (m ((c.tc : Thread nD τ).loc main_arg1)) :=
  (W4_of_ne m ρ c main_v3 (by decide)).trans (W3_v3 m ρ c)
/-- At the first region's exit the destination-node list is the reference's. -/
theorem W4_v6 (c : Dev nD) : W4 m ρ c (Proc.devRef .tc main_v6)
    = Cert.ReferenceIdeal.ReadP.val_main_v6 (F := F) (m ((c.tc : Thread nD τ).loc main_arg1)) :=
  (W4_of_ne m ρ c main_v6 (by decide)).trans (W3_v6 m ρ c)
/-- At the first region's exit the edge norm is the reference's. -/
theorem W4_v29 (c : Dev nD) : W4 m ρ c (Proc.devRef .tc main_v29)
    = Cert.ReferenceIdeal.ReadP.val_main_v29 (F := F) (m ((c.tc : Thread nD τ).loc main_arg1)) :=
  (W4_of_ne m ρ c main_v29 (by decide)).trans (W3_v29 m ρ c)

/-- The second region enters with the aggregation of what the first region left in the matrix product's buffer. -/
theorem V5_v43 (c : Dev nD) : V5 m ρ c main_v43
    = aggOf (W4 m ρ c (Proc.devRef .tc main_v30)) (m ((c.tc : Thread nD τ).loc main_arg1)) :=
  ops1_v43 (W4 m ρ c) _ (W4_v3 m ρ c) (W4_v6 m ρ c) (W4_v29 m ρ c)

/-- The bias argument is as launched when the first region exits: no stretch and no region writes it. -/
theorem W4_arg3 (c : Dev nD) : W4 m ρ c (Proc.devRef .tc main_arg3) = m ((c.tc : Thread nD τ).loc main_arg3) := by
  have e2 : ∀ X : Valuation τ sig (Elt F), StableHlo.after hostOps0_2 X (Proc.devRef .tc main_arg3) = X (Proc.devRef .tc main_arg3) :=
    fun X => by after_results <;> rfl
  have e1 : ∀ X : Valuation τ sig (Elt F), StableHlo.after hostOps0_1 X (Proc.devRef .tc main_arg3) = X (Proc.devRef .tc main_arg3) :=
    fun X => by after_results <;> rfl
  have e0 : ∀ X : Valuation τ sig (Elt F), StableHlo.after hostOps0 X (Proc.devRef .tc main_arg3) = X (Proc.devRef .tc main_arg3) :=
    fun X => by after_results <;> rfl
  exact (W4_of_ne m ρ c main_arg3 (by decide)).trans ((e2 (W2 m ρ c)).trans ((e1 (W1 m ρ c)).trans (e0 (W0 m ρ c))))

/-- The second region enters with the bias as one row. -/
theorem V5_v44 (c : Dev nD) : V5 m ρ c main_v44
    = shapeCast S1x128 (m ((c.tc : Thread nD τ).loc main_arg3)) shapeCasts_S128_S1x128 :=
  (ops1_v44 (W4 m ρ c)).trans (by rw [W4_arg3 m ρ c])

/-! ## At the extended reals: the matrix product and the bias broadcast, entry by entry -/

omit m ρ in
/-- The reference's matrix product is the entrywise sum of products. -/
theorem ref_v30 (x0 : (⟨Cert.ReferenceIdeal.S100000x128, .f32⟩ : BufTy).Contents (Elt Ideal))
    (x2 : (⟨Cert.ReferenceIdeal.S128x128, .f32⟩ : BufTy).Contents (Elt Ideal)) :
    Cert.ReferenceIdeal.ReadP.val_main_v30 (F := Ideal) x0 x2 = GcnBn.matmulOf x0 x2 := by
  funext i
  obtain ⟨r, j, rfl⟩ : ∃ (r : Fin 100000) (j : Fin 128), i = ValueIdx.ix2 r j := ⟨_, _, ValueIdx.eq_ix2 i⟩
  rw [Cert.ReferenceIdeal.ReadP.val_main_v30_apply, GcnBn.matmulOf_apply]
  refine Finset.sum_congr rfl fun k _ => ?_
  have el : Cert.ReferenceIdeal.ReadP.lidx_main_v30 (ValueIdx.ix2 r j) k = ValueIdx.ix2 r k := by
    funext a; match a with | ⟨0, _⟩ => rfl | ⟨1, _⟩ => rfl
  have er : Cert.ReferenceIdeal.ReadP.ridx_main_v30 (ValueIdx.ix2 r j) k = ValueIdx.ix2 k j := by
    funext a; match a with | ⟨0, _⟩ => rfl | ⟨1, _⟩ => rfl
  rw [el, er]

omit m ρ in
/-- Adding the one-row bias to every row is the reference's sum with the bias broadcast over the rows. -/
theorem biased_eq (A : GcnBn.SN.Idx → EReal) (x3 : (⟨Cert.ReferenceIdeal.S128, .f32⟩ : BufTy).Contents (Elt Ideal)) :
    GcnBn.addBias A (shapeCast Cert.KernelIdeal.S1x128 x3 shapeCasts_S128_S1x128)
      = addf (F := Ideal) (φ := .f32) A (Cert.ReferenceIdeal.ReadP.val_main_v45 (F := Ideal) x3) := by
  funext i
  obtain ⟨r, j, rfl⟩ : ∃ (r : Fin 100000) (j : Fin 128), i = ValueIdx.ix2 r j := ⟨_, _, ValueIdx.eq_ix2 i⟩
  rw [GcnBn.addBias_apply]
  show _ = A (ValueIdx.ix2 r j) + Cert.ReferenceIdeal.ReadP.val_main_v45 (F := Ideal) x3 (ValueIdx.ix2 r j)
  rw [Cert.ReferenceIdeal.ReadP.val_main_v45_apply, Cert.ReferenceIdeal.ReadP.val_main_v44_apply,
    ValueIdx.shapeCast_a_1a_apply]
  congr 2
  funext a; match a with | ⟨0, _⟩ => rfl

end Cert.KernelIdeal.Chain

end
-- ==== Proof.KernelValue.lean ====
/-
  The kernel program's result, as one function of its arguments. Its first pallas_call leaves the matrix product of the
  features with the weights; the host gathers, scales and scatter-adds it along the edges (the chain it shares with the
  reference, carried as one function); its second call adds the bias and leaves the column sums and the column sums of
  squares; its third normalises. So the result is the batch normalisation — variance as mean of squares minus squared
  mean — of the same biased aggregate the reference normalises.
-/
import proofs.«125161_j88390426952001_1_alg».proof.Proof.RunValue
import proofs.«125161_j88390426952001_1_alg».proof.Proof.Tail
import proofs.«125161_j88390426952001_1_alg».proof.Proof.Region0
import proofs.«125161_j88390426952001_1_alg».proof.Proof.Region1
import proofs.«125161_j88390426952001_1_alg».proof.Proof.Region2
import proofs.«125161_j88390426952001_1_alg».proof.Proof.Chain

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo GcnBn
open Idealize.ShloMosaic.Pipeline (Dat)

section AnyF
variable {F : FTy → Type} [FloatOps F]
variable (m : (ℓ : Loc nD τ sig) → Buf (Elt F) ℓ) (ρ : Dev nD → PrngReg)

/-- No host operation before the first call writes a buffer it does not name: an argument holds at the first call's
    entry what it held at launch. -/
theorem W3_arg (c : Dev nD) (b : Ref sig .tc) (hb : b = main_arg0 ∨ b = main_arg2) :
    W3 m ρ c (Proc.devRef .tc b) = m ((c : Thread nD τ).loc b) := by
  have e2 : W3 m ρ c (Proc.devRef .tc b) = W2 m ρ c (Proc.devRef .tc b) :=
    StableHlo.after_of_forall_not_mem (b := Proc.devRef .tc b) _ _ (List.forall_iff_forall_mem.mp (by
      simp only [hostOps0_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals (rcases hb with rfl | rfl <;> exact StableHlo.devRef_ne_of_ne (by decide))))
  have e1 : W2 m ρ c (Proc.devRef .tc b) = W1 m ρ c (Proc.devRef .tc b) :=
    StableHlo.after_of_forall_not_mem (b := Proc.devRef .tc b) _ _ (List.forall_iff_forall_mem.mp (by
      simp only [hostOps0_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals (rcases hb with rfl | rfl <;> exact StableHlo.devRef_ne_of_ne (by decide))))
  have e0 : W1 m ρ c (Proc.devRef .tc b) = W0 m ρ c (Proc.devRef .tc b) :=
    StableHlo.after_of_forall_not_mem (b := Proc.devRef .tc b) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals (rcases hb with rfl | rfl <;> exact StableHlo.devRef_ne_of_ne (by decide))))
  exact e2.trans (e1.trans (e0.trans rfl))

end AnyF

variable (m : (ℓ : Loc nD τ sig) → Buf (Elt Ideal) ℓ) (ρ : Dev nD → PrngReg)

/-- After the first call the product array holds the features times the weights. -/
theorem W4_product (c : Dev nD) :
    (W4 m ρ c (Proc.devRef .tc main_v30) : SN.Idx → EReal)
      = matmulOf (m ((c : Thread nD τ).loc main_arg0)) (m ((c : Thread nD τ).loc main_arg2)) := by
  refine (W4_arr m ρ c 2).trans ((Reg0.arr2 (V3 m ρ) c).trans ?_)
  show matmulOf (W3 m ρ c (Proc.devRef .tc main_arg0)) (W3 m ρ c (Proc.devRef .tc main_arg2)) = _
  rw [W3_arg m ρ c main_arg0 (.inl rfl), W3_arg m ρ c main_arg2 (.inr rfl)]

/-- The biased aggregate the second call leaves is the reference's: the shared chain applied to the same product,
    plus the same bias row. -/
theorem biased (c : Dev nD) :
    addBias (V5 m ρ c main_v43) (V5 m ρ c main_v44)
      = Cert.ReferenceIdeal.ReadP.val_main_v46 (F := Ideal) (m ((c : Thread nD τ).loc main_arg0)) (m ((c : Thread nD τ).loc main_arg1))
          (m ((c : Thread nD τ).loc main_arg2)) (m ((c : Thread nD τ).loc main_arg3)) := by
  rw [Chain.V5_v43, Chain.V5_v44, W4_product, Chain.biased_eq, ← Chain.ref_v30, ← Chain.ref_v43]
  rfl

/-- The program's result array ends at the batch normalisation of the reference's biased aggregate, the variance spelt
    as mean of squares minus squared mean. -/
theorem result (c : Dev nD) :
    (W8 m ρ c (Proc.devRef .tc main_v58) : SN.Idx → EReal)
      = bnRelu
          (varOfSquares (Cert.ReferenceIdeal.ReadP.val_main_v46 (F := Ideal) (m ((c : Thread nD τ).loc main_arg0)) (m ((c : Thread nD τ).loc main_arg1))
            (m ((c : Thread nD τ).loc main_arg2)) (m ((c : Thread nD τ).loc main_arg3))))
          (Cert.ReferenceIdeal.ReadP.val_main_v46 (F := Ideal) (m ((c : Thread nD τ).loc main_arg0)) (m ((c : Thread nD τ).loc main_arg1))
            (m ((c : Thread nD τ).loc main_arg2)) (m ((c : Thread nD τ).loc main_arg3)))
          (m ((c : Thread nD τ).loc main_arg0))
          (fun j => (m ((c : Thread nD τ).loc main_arg4) : S128.Idx → EReal) (ix1 j))
          (fun j => (m ((c : Thread nD τ).loc main_arg5) : S128.Idx → EReal) (ix1 j)) := by
  rw [← biased m ρ c]
  exact Tail.result_eq m ρ c _
    ((W8_arr m ρ c 6).trans (Reg2.arr6 (V7 m ρ) c))
    ((W6_arr m ρ c 2).trans (Reg1.arr2 (V5 m ρ) c))
    ((W6_arr m ρ c 3).trans (Reg1.arr3 (V5 m ρ) c))
    ((W6_arr m ρ c 4).trans (Reg1.arr4 (V5 m ρ) c))

end Cert.KernelIdeal.KernelValue

end
-- ==== Proof.RefValue.lean ====
/-
  The reference program's result, read index by index: from the pre-normalisation array `Y` it forms each column's
  mean and its mean of squared deviations, normalises, scales, shifts, clamps below at zero and adds the residual.
  That is the shared `GcnBn.bnRelu` with the centred variance.
-/
import proofs.«125161_j88390426952001_1_alg».proof.Proof.RefRead
import proofs.«125161_j88390426952001_1_alg».proof.Proof.Spec

noncomputable section

open scoped BigOperators

namespace Cert.ReferenceIdeal.RefValue

open Cert.ReferenceIdeal Cert.ReferenceIdeal.ReadP Idealize.ShloMosaic Idealize.ShloMosaic.ValueIdx GcnBn

/-- The index a column sum reads: row `k` of column `j`. -/
theorem idx47 (j : Fin 128) (k : Fin 100000) : idx_main_v47 (ix1 j) k = ix2 k j :=
  funext fun a => Fin.ext (by match a with | ⟨0, _⟩ => rfl | ⟨1, _⟩ => rfl)
theorem idx54 (j : Fin 128) (k : Fin 100000) : idx_main_v54 (ix1 j) k = ix2 k j :=
  funext fun a => Fin.ext (by match a with | ⟨0, _⟩ => rfl | ⟨1, _⟩ => rfl)
/-- A broadcast along the rows reads the one row. -/
theorem idx51 (r : Fin 100000) (j : Fin 128) : idx_main_v51 (ix2 r j) = ix2 0 j :=
  funext fun a => Fin.ext (by match a with | ⟨0, _⟩ => rfl | ⟨1, _⟩ => rfl)
theorem idx58 (r : Fin 100000) (j : Fin 128) : idx_main_v58 (ix2 r j) = ix2 0 j :=
  funext fun a => Fin.ext (by match a with | ⟨0, _⟩ => rfl | ⟨1, _⟩ => rfl)
theorem idx64 (r : Fin 100000) (j : Fin 128) : idx_main_v64 (ix2 r j) = ix2 0 j :=
  funext fun a => Fin.ext (by match a with | ⟨0, _⟩ => rfl | ⟨1, _⟩ => rfl)
theorem idx67 (r : Fin 100000) (j : Fin 128) : idx_main_v67 (ix2 r j) = ix2 0 j :=
  funext fun a => Fin.ext (by match a with | ⟨0, _⟩ => rfl | ⟨1, _⟩ => rfl)
theorem idx70 (r : Fin 100000) (j : Fin 128) : idx_main_v70 (ix2 r j) = ix2 0 j :=
  funext fun a => Fin.ext (by match a with | ⟨0, _⟩ => rfl | ⟨1, _⟩ => rfl)
/-- The one row, read at column `j`, is the vector at `j`. -/
theorem idx50 (j : Fin 128) : idx_main_v50 (ix2 0 j) = ix1 j :=
  funext fun a => Fin.ext (by match a with | ⟨0, _⟩ => rfl)
theorem idx57 (j : Fin 128) : idx_main_v57 (ix2 0 j) = ix1 j :=
  funext fun a => Fin.ext (by match a with | ⟨0, _⟩ => rfl)
theorem idx63 (j : Fin 128) : idx_main_v63 (ix2 0 j) = ix1 j :=
  funext fun a => Fin.ext (by match a with | ⟨0, _⟩ => rfl)
theorem idx66 (j : Fin 128) : idx_main_v66 (ix2 0 j) = ix1 j :=
  funext fun a => Fin.ext (by match a with | ⟨0, _⟩ => rfl)
theorem idx69 (j : Fin 128) : idx_main_v69 (ix2 0 j) = ix1 j :=
  funext fun a => Fin.ext (by match a with | ⟨0, _⟩ => rfl)

/-- The column mean: the column sum over the float `100000.0`. -/
theorem v49_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (j : Fin 128) :
    val_main_v49 (F := Ideal) x0 x1 x2 x3 (ix1 j) = GcnBn.mean (val_main_v46 (F := Ideal) x0 x1 x2 x3) j := by
  rw [val_main_v49_apply, val_main_v47_apply, val_main_v48_apply, val_main_cst_9_apply, val_main_cst_10_apply,
    Ideal.hostDivf_def, Ideal.ofBits_def, Ideal.ofBits_def, Ideal.ofBits_zero_f32, zero_add]
  unfold GcnBn.mean GcnBn.colSum GcnBn.nNodes
  simp only [idx47]

/-- The mean, broadcast to the whole array. -/
theorem v51_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (r : Fin 100000) (j : Fin 128) :
    val_main_v51 (F := Ideal) x0 x1 x2 x3 (ix2 r j) = GcnBn.mean (val_main_v46 (F := Ideal) x0 x1 x2 x3) j := by
  rw [val_main_v51_apply, idx51, val_main_v50_apply, idx50, v49_eq]
theorem v58_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (r : Fin 100000) (j : Fin 128) :
    val_main_v58 (F := Ideal) x0 x1 x2 x3 (ix2 r j) = GcnBn.mean (val_main_v46 (F := Ideal) x0 x1 x2 x3) j := by
  rw [val_main_v58_apply, idx58, val_main_v57_apply, idx57, v49_eq]

/-- The column variance: the mean of the squared deviations from the column mean. -/
theorem v56_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (j : Fin 128) :
    val_main_v56 (F := Ideal) x0 x1 x2 x3 (ix1 j) = GcnBn.varCentred (val_main_v46 (F := Ideal) x0 x1 x2 x3) j := by
  rw [val_main_v56_apply, val_main_v54_apply, val_main_v55_apply, val_main_cst_11_apply, val_main_cst_12_apply,
    Ideal.hostDivf_def, Ideal.ofBits_def, Ideal.ofBits_def, Ideal.ofBits_zero_f32, zero_add]
  unfold GcnBn.varCentred GcnBn.nNodes
  simp only [idx54, val_main_v53_apply, val_main_v52_apply, v51_eq, Ideal.mulf_def, Ideal.subf_def]

/-- The reference's result is the normalisation of `Y` with the centred variance. -/
theorem ref_eq (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 x4 x5 : (⟨S128, .f32⟩ : BufTy).Contents (Elt Ideal)) :
    val_main_v73 (F := Ideal) x0 x1 x2 x3 x4 x5
      = GcnBn.bnRelu (GcnBn.varCentred (val_main_v46 (F := Ideal) x0 x1 x2 x3)) (val_main_v46 (F := Ideal) x0 x1 x2 x3) x0 (fun j => x4 (ix1 j)) (fun j => x5 (ix1 j)) := by
  funext i
  obtain ⟨r, j, rfl⟩ : ∃ (r : Fin 100000) (j : Fin 128), i = ix2 r j :=
    ⟨⟨(i 0).val, idx2_lt0 i⟩, ⟨(i 1).val, idx2_lt1 i⟩, by funext a; match a with | ⟨0, _⟩ => rfl | ⟨1, _⟩ => rfl⟩
  rw [bnRelu_apply, val_main_v73_apply, val_main_v72_apply, val_main_v71_apply, val_main_v68_apply, val_main_v65_apply,
    val_main_v59_apply, v58_eq, val_main_v64_apply, idx64, val_main_v63_apply, idx63, val_main_v62_apply,
    val_main_v61_apply, v56_eq, val_main_v60_apply, val_main_cst_13_apply,
    val_main_v67_apply, idx67, val_main_v66_apply, idx66, val_main_v70_apply, idx70, val_main_v69_apply, idx69,
    val_main_call1_v0_apply, val_main_call1_cst_apply,
    Ideal.addf_def, Ideal.addf_def, Ideal.addf_def, Ideal.maximumf_def, Ideal.mulf_def, Ideal.mulf_def, Ideal.subf_def,
    Ideal.hostUnary_rsqrt_def, Ideal.ofBits_def, Ideal.ofBits_def, Ideal.ofBits_zero_f32]
  rfl

end Cert.ReferenceIdeal.RefValue

end
-- ==== Proof.RealOps.lean ====
/-
  Closure of "every entry is a real number" under the host operations the reference is built from, at the
  ideal instance (entries are extended reals): sums, products, finite sums, gathers, accumulating scatters,
  broadcasts, the constants zero and one, and the guarded reciprocal square root of a degree.
-/
import Idealize.ShloMosaic.PureOps.Ideal
import Idealize.ShloMosaic.PureOps.Ideal.Laws
import Idealize.ShloMosaic.Lib.ValueIdx
import proofs.«125161_j88390426952001_1_alg».proof.Proof.Spec

noncomputable section

open scoped BigOperators

namespace GcnBn

open Idealize.ShloMosaic Idealize.ShloMosaic.ValueIdx

/-- Every entry of the array is a real number (neither infinity). -/
def IsReal {ι : Type} (v : ι → EReal) : Prop := ∀ i, ∃ y : ℝ, v i = (y : EReal)

/-- The sum of two reals is a real. -/
theorem exists_real_add {a b : EReal} (ha : ∃ x : ℝ, a = (x : EReal)) (hb : ∃ y : ℝ, b = (y : EReal)) :
    ∃ z : ℝ, a + b = (z : EReal) := by
  obtain ⟨x, rfl⟩ := ha
  obtain ⟨y, rfl⟩ := hb
  exact ⟨x + y, (EReal.coe_add x y).symm⟩

/-- The product of two reals is a real. -/
theorem exists_real_mul {a b : EReal} (ha : ∃ x : ℝ, a = (x : EReal)) (hb : ∃ y : ℝ, b = (y : EReal)) :
    ∃ z : ℝ, a * b = (z : EReal) := by
  obtain ⟨x, rfl⟩ := ha
  obtain ⟨y, rfl⟩ := hb
  exact ⟨x * y, (EReal.coe_mul x y).symm⟩

/-- A finite sum of reals is a real. -/
theorem isReal_sum {κ : Type} (t : Finset κ) (f : κ → EReal) (hf : ∀ k ∈ t, ∃ y : ℝ, f k = (y : EReal)) :
    ∃ y : ℝ, ∑ k ∈ t, f k = (y : EReal) := by
  classical
  induction t using Finset.induction_on with
  | empty => exact ⟨0, by rw [Finset.sum_empty, EReal.coe_zero]⟩
  | insert a t ha ih =>
    rw [Finset.sum_insert ha]
    exact exists_real_add (hf a (Finset.mem_insert_self a t)) (ih fun k hk => hf k (Finset.mem_insert_of_mem hk))

theorem isReal_add {s : Shape} {φ : FTy} (a b : FVec Ideal s φ) (ha : IsReal a) (hb : IsReal b) : IsReal (addf a b) :=
  fun i => by rw [addf_apply]; exact exists_real_add (ha i) (hb i)

theorem isReal_mul {s : Shape} {φ : FTy} (a b : FVec Ideal s φ) (ha : IsReal a) (hb : IsReal b) : IsReal (mulf a b) :=
  fun i => by rw [mulf_apply]; exact exists_real_mul (ha i) (hb i)

/-- A gather reads entries of its operand. -/
theorem isReal_gather {s si t : Shape} {w : Nat} (d : GatherDims s si t) (x : s.Idx → EReal) (idx : IVec si w)
    (hx : IsReal x) : IsReal (Host.gather d x idx) := fun _ => hx _

/-- An accumulating scatter adds to each entry a finite sum of update entries. -/
theorem isReal_scatterAdd {s si u : Shape} {w : Nat} {φ : FTy} (d : ScatterDims s si u) (x : FVec Ideal s φ) (idx : IVec si w)
    (upd : FVec Ideal u φ) (hx : IsReal x) (hu : IsReal upd) : IsReal (Host.scatterAdd d x idx upd) := by
  intro i
  unfold Host.scatterAdd
  rw [Ideal.hostScatterAdd_def]
  unfold Ideal.hostScatterAdd
  exact exists_real_add (hx i) (isReal_sum _ _ fun k _ => hu k)

/-- A broadcast reads entries of its operand. -/
theorem isReal_broadcastInDim {s t : Shape} (dims : Fin s.rank → Fin t.rank) (h : s.BroadcastsInDim t dims)
    (x : s.Idx → EReal) (hx : IsReal x) : IsReal (broadcastInDim t dims h x) := fun _ => hx _

/-- The float `1.0` denotes the real one. -/
theorem ofBits_one_f32 : Ideal.ofBits .f32 0x3F800000#32 = 1 := by
  simp [Ideal.ofBits, Ideal.ieee, -EReal.coe_mul]; norm_num

theorem isReal_const_zero (s : Shape) : IsReal (constant (F := Ideal) s .f32 0x00000000#32) := fun _ =>
  ⟨0, by show Ideal.ofBits .f32 0x00000000#32 = _; rw [Ideal.ofBits_zero_f32, EReal.coe_zero]⟩

theorem isReal_const_one (s : Shape) : IsReal (constant (F := Ideal) s .f32 0x3F800000#32) := fun _ =>
  ⟨1, by show Ideal.ofBits .f32 0x3F800000#32 = _; rw [ofBits_one_f32, EReal.coe_one]⟩

/-- The guarded reciprocal square root of one entry: where `e > 0` it is `0` (at `⊤`) or the real `(√e)⁻¹`,
    elsewhere the fallback `c`. -/
theorem exists_real_dinv (e c : EReal) (hc : ∃ y : ℝ, c = (y : EReal)) :
    ∃ y : ℝ, Scalar.select (Ideal.cmp .ogt e 0) (Ideal.rsqrt e) c = (y : EReal) := by
  show ∃ y : ℝ, (if BitVec.ofBool (decide ((0 : EReal) < e)) = 1 then Ideal.rsqrt e else c) = (y : EReal)
  induction e using EReal.rec with
  | bot => simpa using hc
  | top => exact ⟨0, by simp⟩
  | coe r =>
    by_cases hr : 0 < r
    · refine ⟨(Real.sqrt r)⁻¹, ?_⟩
      have h0 : (0 : EReal) < (r : EReal) := by exact_mod_cast hr
      simp [h0, not_lt.mpr hr.le, hr.ne']
    · have h0 : ¬ (0 : EReal) < (r : EReal) := by exact_mod_cast hr
      simpa [h0] using hc

/-- The guarded reciprocal square root of ANY array `d` (real or not) against the zero array, falling back to a real
    array, is real. -/
theorem isReal_dinv {s : Shape} (d z zz : FVec Ideal s .f32) (hz : ∀ i, z i = 0) (hzz : IsReal zz) :
    IsReal (select (cmpf .ogt d z) (Host.rsqrt d) zz) := by
  intro i
  show ∃ y : ℝ, Scalar.select (Ideal.cmp .ogt (d i) (z i)) (Ideal.rsqrt (d i)) (zz i) = (y : EReal)
  rw [hz i]
  exact exists_real_dinv (d i) (zz i) (hzz i)

end GcnBn

end
-- ==== Proof.RefReal.lean ====
/-
  Every entry of the reference's graph-convolution output (its stage 46: the normalised aggregation of the
  projected features plus the bias) is a real number when the features, the weights and the bias are real.
  Stage by stage from the inputs up; the values of the integer index arrays play no part. The only stage where
  an infinity could enter, the reciprocal square root of the degrees, is guarded by the comparison with zero.
-/
import Idealize.ShloMosaic.PureOps.Ideal
import Idealize.ShloMosaic.PureOps.Ideal.Laws
import Idealize.ShloMosaic.Lib.ValueIdx
import proofs.«125161_j88390426952001_1_alg».proof.Proof.Spec
import proofs.«125161_j88390426952001_1_alg».proof.Proof.RealOps
import proofs.«125161_j88390426952001_1_alg».proof.Proof.RefRead

noncomputable section

open scoped BigOperators

namespace Cert.ReferenceIdeal.RefReal

open Cert.ReferenceIdeal Cert.ReferenceIdeal.ReadP Cert.ReferenceIdeal.Gen Idealize.ShloMosaic Idealize.ShloMosaic.TcCoe Idealize.SL.Sem Idealize.ShloMosaic.StableHlo
open GcnBn (IsReal isReal_add isReal_mul isReal_sum isReal_gather isReal_scatterAdd isReal_broadcastInDim isReal_const_zero isReal_dinv exists_real_mul)

/-- The zero array the degrees are compared with. -/
theorem v11_zero (i : S100000.Idx) : val_main_v11 (F := Ideal) i = 0 := by
  rw [val_main_v11_apply, val_main_cst_1_apply]
  exact Ideal.ofBits_zero_f32

/-- The fallback of the guarded reciprocal square root: a broadcast zero. -/
theorem real_call0_v1 : IsReal (val_main_call0_v1 (F := Ideal)) := by
  unfold val_main_call0_v1
  apply isReal_broadcastInDim
  unfold val_main_call0_v0 val_main_cst_2
  exact isReal_const_zero _

/-- The normalising factor of each node, whatever its degree. -/
theorem real_v14 (x1 : (⟨S2x600000, .i32⟩ : BufTy).Contents (Elt Ideal)) : IsReal (val_main_v14 (F := Ideal) x1) := by
  unfold val_main_v14 val_main_v12 val_main_v13
  exact isReal_dinv _ _ _ v11_zero real_call0_v1

theorem real_v21 (x1 : (⟨S2x600000, .i32⟩ : BufTy).Contents (Elt Ideal)) : IsReal (val_main_v21 (F := Ideal) x1) := by
  unfold val_main_v21
  exact isReal_gather _ _ _ (real_v14 x1)

theorem real_v28 (x1 : (⟨S2x600000, .i32⟩ : BufTy).Contents (Elt Ideal)) : IsReal (val_main_v28 (F := Ideal) x1) := by
  unfold val_main_v28
  exact isReal_gather _ _ _ (real_v14 x1)

/-- The weight of each edge: the product of its endpoints' factors. -/
theorem real_v29 (x1 : (⟨S2x600000, .i32⟩ : BufTy).Contents (Elt Ideal)) : IsReal (val_main_v29 (F := Ideal) x1) := by
  unfold val_main_v29
  exact isReal_mul _ _ (real_v21 x1) (real_v28 x1)

/-- The projected features: each entry a sum of 128 products of reals. -/
theorem real_v30 (x0 : (⟨S100000x128, .f32⟩ : BufTy).Contents (Elt Ideal)) (x2 : (⟨S128x128, .f32⟩ : BufTy).Contents (Elt Ideal)) (h0 : IsReal x0) (h2 : IsReal x2) : IsReal (val_main_v30 (F := Ideal) x0 x2) := by
  intro i
  rw [val_main_v30_apply]
  exact isReal_sum _ _ fun k _ => exists_real_mul (h0 _) (h2 _)

theorem real_v37 (x0 : (⟨S100000x128, .f32⟩ : BufTy).Contents (Elt Ideal)) (x1 : (⟨S2x600000, .i32⟩ : BufTy).Contents (Elt Ideal)) (x2 : (⟨S128x128, .f32⟩ : BufTy).Contents (Elt Ideal)) (h0 : IsReal x0) (h2 : IsReal x2) : IsReal (val_main_v37 (F := Ideal) x0 x1 x2) := by
  unfold val_main_v37
  exact isReal_gather _ _ _ (real_v30 x0 x2 h0 h2)

theorem real_v38 (x1 : (⟨S2x600000, .i32⟩ : BufTy).Contents (Elt Ideal)) : IsReal (val_main_v38 (F := Ideal) x1) := by
  unfold val_main_v38
  exact isReal_broadcastInDim _ _ _ (real_v29 x1)

theorem real_v39 (x1 : (⟨S2x600000, .i32⟩ : BufTy).Contents (Elt Ideal)) : IsReal (val_main_v39 (F := Ideal) x1) := by
  unfold val_main_v39
  exact isReal_broadcastInDim _ _ _ (real_v38 x1)

/-- The message along each edge. -/
theorem real_v40 (x0 : (⟨S100000x128, .f32⟩ : BufTy).Contents (Elt Ideal)) (x1 : (⟨S2x600000, .i32⟩ : BufTy).Contents (Elt Ideal)) (x2 : (⟨S128x128, .f32⟩ : BufTy).Contents (Elt Ideal)) (h0 : IsReal x0) (h2 : IsReal x2) : IsReal (val_main_v40 (F := Ideal) x0 x1 x2) := by
  unfold val_main_v40
  exact isReal_mul _ _ (real_v37 x0 x1 x2 h0 h2) (real_v39 x1)

theorem real_v41 : IsReal (val_main_v41 (F := Ideal)) := by
  unfold val_main_v41
  apply isReal_broadcastInDim
  unfold val_main_cst_8
  exact isReal_const_zero _

/-- The aggregation: each node's entry is a finite sum of messages. -/
theorem real_v43 (x0 : (⟨S100000x128, .f32⟩ : BufTy).Contents (Elt Ideal)) (x1 : (⟨S2x600000, .i32⟩ : BufTy).Contents (Elt Ideal)) (x2 : (⟨S128x128, .f32⟩ : BufTy).Contents (Elt Ideal)) (h0 : IsReal x0) (h2 : IsReal x2) : IsReal (val_main_v43 (F := Ideal) x0 x1 x2) := by
  unfold val_main_v43
  exact isReal_scatterAdd _ _ _ _ real_v41 (real_v40 x0 x1 x2 h0 h2)

theorem real_v44 (x3 : (⟨S128, .f32⟩ : BufTy).Contents (Elt Ideal)) (h3 : IsReal x3) : IsReal (val_main_v44 (F := Ideal) x3) := by
  unfold val_main_v44
  exact isReal_broadcastInDim _ _ _ h3

theorem real_v45 (x3 : (⟨S128, .f32⟩ : BufTy).Contents (Elt Ideal)) (h3 : IsReal x3) : IsReal (val_main_v45 (F := Ideal) x3) := by
  unfold val_main_v45
  exact isReal_broadcastInDim _ _ _ (real_v44 x3 h3)

/-- The graph convolution's output is real. -/
theorem real_v46 (x0 : (⟨S100000x128, .f32⟩ : BufTy).Contents (Elt Ideal)) (x1 : (⟨S2x600000, .i32⟩ : BufTy).Contents (Elt Ideal)) (x2 : (⟨S128x128, .f32⟩ : BufTy).Contents (Elt Ideal)) (x3 : (⟨S128, .f32⟩ : BufTy).Contents (Elt Ideal)) (h0 : GcnBn.IsReal x0) (h2 : GcnBn.IsReal x2) (h3 : GcnBn.IsReal x3) :
    GcnBn.IsReal (val_main_v46 (F := Ideal) x0 x1 x2 x3) := by
  unfold val_main_v46
  exact isReal_add _ _ (real_v43 x0 x1 x2 h0 h2) (real_v45 x3 h3)

end Cert.ReferenceIdeal.RefReal

end
-- ==== Proof.PreReal.lean ====
/-
  The precondition read back: each of its five conjuncts says that every entry of one float input has absolute value
  below +∞; on extended reals that is to say the entry is a real number. Stated for the three inputs the law needs.
-/
import proofs.«125161_j88390426952001_1_alg».proof.Pre_finite_inputs
import Idealize.ShloMosaic.Lib.ReduceAll
import Idealize.ShloMosaic.PureOps.Ideal
import Idealize.ShloMosaic.Lib.ValueIdx

noncomputable section

namespace Cert.PreReal

open Idealize.ShloMosaic Idealize.ShloMosaic.ValueIdx

/-- The rank-0 index set has one element. -/
instance : Subsingleton Cert.Pre_finite_inputs.S_.Idx := ⟨fun a b => funext fun d => d.elim0⟩

/-- The bit pattern of +∞ is the top element. -/
theorem top_bits : Ideal.ofBits .f32 0x7F800000#32 = (⊤ : EReal) := by simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ y : ℝ, x = (y : EReal) := by
  rw [top_bits] at h
  induction x using EReal.rec with
  | bot => exfalso; revert h; simp [Ideal.cmp]
  | coe y => exact ⟨y, rfl⟩
  | top => exfalso; revert h; simp [Ideal.cmp]

theorem real_of_pre [Cert.Pre_finite_inputs.Facts] (a0 : FVec Ideal Cert.Pre_finite_inputs.S100000x128 .f32) (a1 : IVec Cert.Pre_finite_inputs.S2x600000 32) (a2 : FVec Ideal Cert.Pre_finite_inputs.S128x128 .f32) (a3 a4 a5 : FVec Ideal Cert.Pre_finite_inputs.S128 .f32)
    (h : Cert.Pre_finite_inputs.fn (F := Ideal) a0 a1 a2 a3 a4 a5 = fun _ => 1#1) :
    (∀ i, ∃ y : ℝ, a0 i = (y : EReal)) ∧ (∀ i, ∃ y : ℝ, a2 i = (y : EReal)) ∧ (∀ i, ∃ y : ℝ, a3 i = (y : EReal)) := by
  have h0 := congrFun h ValueIdx.ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, h12⟩ := IntOp.andi_eq_one.1 h2
  obtain ⟨hv3, hv7⟩ := IntOp.andi_eq_one.1 h3
  exact ⟨fun i => real_of_abs_lt (a0 i) (Host.reduce_andi_all _ _ _ _ _ hv3 i),
    fun i => real_of_abs_lt (a2 i) (Host.reduce_andi_all _ _ _ _ _ hv7 i),
    fun i => real_of_abs_lt (a3 i) (Host.reduce_andi_all _ _ _ _ _ h12 i)⟩

end Cert.PreReal

end
-- ==== Proof.BnLaw.lean ====
/-
  The two spellings of the biased column variance agree when every entry is a real number: the mean of squared
  deviations from the mean equals the mean of squares minus the squared mean. The identity is proved over the
  reals and transported to the extended reals through the coercion.
-/
import proofs.«125161_j88390426952001_1_alg».proof.Proof.Spec
import Mathlib.Data.EReal.Basic
import Mathlib.Tactic.FieldSimp
import Mathlib.Tactic.Ring
import Mathlib.Tactic.NormNum

noncomputable section

open scoped BigOperators

namespace GcnBn

open Idealize.ShloMosaic Idealize.ShloMosaic.ValueIdx

/-- The divisor is the real number 100000. -/
theorem nNodes_eq : nNodes = ((100000 : ℝ) : EReal) := by
  unfold nNodes
  simp [Ideal.ofBits, Ideal.ieee, -EReal.coe_mul]; norm_num

/-- The coercion of a finite real sum is the sum of the coercions. -/
theorem coe_sum_real {ι : Type} (s : Finset ι) (f : ι → ℝ) :
    ((∑ r ∈ s, f r : ℝ) : EReal) = ∑ r ∈ s, (f r : EReal) := by
  classical
  induction s using Finset.induction_on with
  | empty => simp
  | insert a s ha ih => rw [Finset.sum_insert ha, Finset.sum_insert ha, EReal.coe_add, ih]

/-- Over the reals, with `N` the number of terms: the mean of squared deviations is the mean of squares minus
    the squared mean. -/
theorem real_var_identity (n : ℕ) (N : ℝ) (hcard : (n : ℝ) = N) (hN : N ≠ 0) (y : Fin n → ℝ) :
    (∑ r, (y r - (∑ r, y r) * (1 / N)) * (y r - (∑ r, y r) * (1 / N))) * (1 / N)
      = (∑ r, y r * y r) * (1 / N) - ((∑ r, y r) * (1 / N)) * ((∑ r, y r) * (1 / N)) := by
  have h1 : ∀ r, (y r - (∑ r, y r) * (1 / N)) * (y r - (∑ r, y r) * (1 / N))
      = y r * y r - 2 * ((∑ r, y r) * (1 / N)) * y r + ((∑ r, y r) * (1 / N)) * ((∑ r, y r) * (1 / N)) :=
    fun r => by ring
  simp only [h1]
  rw [Finset.sum_add_distrib, Finset.sum_sub_distrib, ← Finset.mul_sum, Finset.sum_const, Finset.card_univ,
    Fintype.card_fin, nsmul_eq_mul, hcard]
  field_simp
  ring

/-- With real entries, the two spellings of the variance of a column agree. -/
theorem varCentred_eq_varOfSquares (Y : SN.Idx → EReal) (hY : ∀ i, ∃ y : ℝ, Y i = (y : EReal)) (j : Fin 128) :
    varCentred Y j = varOfSquares Y j := by
  choose y hy using hY
  have hN : (100000 : ℝ) ≠ 0 := by norm_num
  have hmean : mean Y j = (((∑ r : Fin 100000, y (ix2 r j)) * (1 / 100000 : ℝ) : ℝ) : EReal) := by
    unfold mean colSum
    rw [nNodes_eq, Ideal.div_coe hN]
    simp only [hy]
    rw [← coe_sum_real, ← EReal.coe_mul]
  unfold varCentred varOfSquares colSumSq
  rw [hmean, nNodes_eq, Ideal.div_coe hN, Ideal.div_coe hN]
  simp only [hy]
  simp only [← EReal.coe_sub, ← EReal.coe_mul, ← coe_sum_real]
  rw [EReal.coe_eq_coe_iff]
  exact real_var_identity 100000 100000 (by norm_num) hN (fun r => y (ix2 r j))

/-- The normalisation does not see which spelling of the variance it is given, when the entries are real. -/
theorem bnRelu_var_congr (Y x : SN.Idx → EReal) (g β : Fin 128 → EReal) (hY : ∀ i, ∃ y : ℝ, Y i = (y : EReal)) :
    bnRelu (varCentred Y) Y x g β = bnRelu (varOfSquares Y) Y x g β := by
  funext i
  unfold bnRelu
  rw [varCentred_eq_varOfSquares Y hY (colOf i)]

end GcnBn

end
-- ==== Proof.lean ====
/- A graph convolution with batch normalisation, ReLU and a residual, against its jnp reference, over the extended reals.

   Both programs form the same biased aggregate `Y` ([100000, 128]): the features times the weights (the kernel's first
   pallas_call, a row-blocked matrix product into a zero accumulator; the reference's `dot_general`: one sum at the
   ideal instance), gathered at the edges' sources, scaled by the symmetric degree normalisation, scatter-added into the
   edges' targets (the same host operations in both programs, carried as one function and never opened), plus the bias
   row. They differ in how they spell the biased variance of a column of `Y`: the reference takes the mean of the
   squared deviations from the mean, the kernel accumulates the column sums and the column sums of squares over its ten
   row blocks (its second pallas_call) and takes the mean of squares minus the squared mean. The two agree when every
   entry of `Y` is a real number, and they are: the inputs are finite by the precondition, the product and the
   scatter-add are finite sums of products of reals, and the degree normalisation `where(deg > 0, rsqrt(deg), 0)` is
   real whatever the degree. After that both normalise alike (the kernel's third pallas_call against the reference's
   broadcasts): `max((Y − mean) · rsqrt(var + ε) · γ + β, 0) + x`. The ideal pass rewrote nothing, so `preserves` is
   trivial; the three frames are the generated frame certificates and the reference's run. -/
import proofs.«125161_j88390426952001_1_alg».proof.Defs
import proofs.«125161_j88390426952001_1_alg».proof.Proof.Gen.Kernel
import proofs.«125161_j88390426952001_1_alg».proof.Proof.Gen.Kernel.Skeleton
import proofs.«125161_j88390426952001_1_alg».proof.Proof.Gen.Kernel.Launch
import proofs.«125161_j88390426952001_1_alg».proof.Proof.Gen.Kernel.Points
import proofs.«125161_j88390426952001_1_alg».proof.Proof.Gen.Kernel.Frame
import proofs.«125161_j88390426952001_1_alg».proof.Proof.Gen.KernelIdeal
import proofs.«125161_j88390426952001_1_alg».proof.Proof.Gen.KernelIdeal.Skeleton
import proofs.«125161_j88390426952001_1_alg».proof.Proof.Gen.KernelIdeal.Launch
import proofs.«125161_j88390426952001_1_alg».proof.Proof.Gen.KernelIdeal.Points
import proofs.«125161_j88390426952001_1_alg».proof.Proof.Gen.KernelIdeal.Frame
import proofs.«125161_j88390426952001_1_alg».proof.Proof.Gen.ReferenceIdeal
import proofs.«125161_j88390426952001_1_alg».proof.Proof.Gen.Pre_finite_inputs
import proofs.«125161_j88390426952001_1_alg».proof.Proof.KernelValue
import proofs.«125161_j88390426952001_1_alg».proof.Proof.RefValue
import proofs.«125161_j88390426952001_1_alg».proof.Proof.RefReal
import proofs.«125161_j88390426952001_1_alg».proof.Proof.PreReal
import proofs.«125161_j88390426952001_1_alg».proof.Proof.BnLaw
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end with the result array at the batch normalisation of the same biased aggregate; the two spellings of
    its column variance agree because its entries are real under the precondition. -/
theorem algebraic : Cert.algebraic_KernelIdeal_ReferenceIdeal := by
  intro m ρ m' ρ' hpre hagree
  refine ⟨fun c => Cert.KernelIdeal.Gen.W8 m ρ c (Proc.devRef .tc Cert.KernelIdeal.main_v58),
    Cert.KernelIdeal.RunValue.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h2, h3⟩ := Cert.PreReal.real_of_pre _ _ _ _ _ _ (hpre c)
  rw [Cert.ReferenceIdeal.ReadP.val_main_v73_eq, (hagree c).1, (hagree c).2.1, (hagree c).2.2.1, (hagree c).2.2.2.1,
    (hagree c).2.2.2.2.1, (hagree c).2.2.2.2.2, Cert.ReferenceIdeal.RefValue.ref_eq]
  refine (GcnBn.bnRelu_var_congr _ _ _ _ (Cert.ReferenceIdeal.RefReal.real_v46 _ _ _ _ h0 h2 h3)).trans ?_
  exact (Cert.KernelIdeal.KernelValue.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
